-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608 : Shape := ⟨1, ![8388608]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : IVec S8388608 32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  main_v3
-- ==== Kernel.lean ====
abbrev S8388608x2 : Shape := ⟨2, ![8388608, 2]⟩
abbrev S8388608 : Shape := ⟨1, ![8388608]⟩
abbrev S8388608x1 : Shape := ⟨2, ![8388608, 1]⟩
abbrev S1x4 : Shape := ⟨2, ![1, 4]⟩
abbrev S16384x2 : Shape := ⟨2, ![16384, 2]⟩
abbrev S16384x1 : Shape := ⟨2, ![16384, 1]⟩
abbrev S16384 : Shape := ⟨1, ![16384]⟩
abbrev S1 : Shape := ⟨1, ![1]⟩
abbrev S1x1 : Shape := ⟨2, ![1, 1]⟩
abbrev S_ : Shape := ⟨0, ![]⟩

abbrev nBuf : Space → Nat
  | .hbm => 31
  | .vmem => 5
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S8388608x1, .i32⟩
  | .hbm, ⟨3, _⟩ => ⟨S1x4, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S16384x2, .f32⟩
  | .local _ .vmem, ⟨1, _⟩ => ⟨S16384x2, .f32⟩
  | .local _ .vmem, ⟨2, _⟩ => ⟨S16384x1, .i32⟩
  | .local _ .vmem, ⟨3, _⟩ => ⟨S16384x1, .i32⟩
  | .local _ .vmem, ⟨4, _⟩ => ⟨S1x4, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_call0_v0 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8388608_S8388608x1 : S8388608.ShapeCasts S8388608x1
  inb_S1x4_S1x4_0_0 : ∀ a, (![0, 0] : Fin 2 → Nat) a + S1x4.size a ≤ S1x4.size a
  h_S1x4 : 0 < S1x4.numel
  inb_S16384x2_S16384x2_0_0 : ∀ a, (![0, 0] : Fin 2 → Nat) a + S16384x2.size a ≤ S16384x2.size a
  h_S16384x2 : 0 < S16384x2.numel
  reduces_S16384x2_S16384 : S16384x2.Reduces [1] S16384
  shapeCasts_S16384_S16384x1 : S16384.ShapeCasts S16384x1
  broadcasts_S16384x1_S16384x2 : S16384x1.Broadcasts S16384x2
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  slices_S16384x2_o0_0_S16384x1 : S16384x2.Slices ![0, 0] S16384x1
  slices_S16384x2_o0_1_S16384x1 : S16384x2.Slices ![0, 1] S16384x1
  reduces_S16384x1_S1 : S16384x1.Reduces [0] S1
  shapeCasts_S1_S1x1 : S1.ShapeCasts S1x1
  natLt_1_32 : 1 < 32
  inb_S1x4_S1x1_0_0 : ∀ a, (![0, 0] : Fin 2 → Nat) a + S1x1.size a ≤ S1x4.size a
  h_S1x1 : 0 < S1x1.numel
  shapeCasts_S1x1_S1x1 : S1x1.ShapeCasts S1x1
  inb_S1x4_S1x1_0_1 : ∀ a, (![0, 1] : Fin 2 → Nat) a + S1x1.size a ≤ S1x4.size a
  inb_S1x4_S1x1_0_2 : ∀ a, (![0, 2] : Fin 2 → Nat) a + S1x1.size a ≤ S1x4.size a
  inb_S1x4_S1x1_0_3 : ∀ a, (![0, 3] : Fin 2 → Nat) a + S1x1.size a ≤ S1x4.size a
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S8388608x2.size a
  hwx0_0 : ∀ i : grid0.Coords, EltTy.bits .f32 = 32 ∨ (Rect.block (s := S8388608x2) S16384x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S8388608x1.size a
  hwx0_1 : ∀ i : grid0.Coords, EltTy.bits .i32 = 32 ∨ (Rect.block (s := S8388608x1) S16384x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)

variable [Facts₀]

abbrev win0_0 : Pipeline.Window sig grid0 :=
  Pipeline.Window.ofSpec (Memref.whole main_arg0) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608 : Shape := ⟨1, ![8388608]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S_, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S8388608x1, .f32⟩
  | .hbm, ⟨8, _⟩ => ⟨S8388608x2, .f32⟩
  | .hbm, ⟨9, _⟩ => ⟨S8388608x2, .f32⟩
  | .hbm, ⟨10, _⟩ => ⟨S8388608x2, .f32⟩
  | .hbm, ⟨11, _⟩ => ⟨S_, .f32⟩
  | .hbm, ⟨12, _⟩ => ⟨S8388608, .f32⟩
  | .hbm, ⟨13, _⟩ => ⟨S8388608x1, .f32⟩
  | .hbm, ⟨14, _⟩ => ⟨S8388608x1, .f32⟩
  | .hbm, ⟨15, _⟩ => ⟨S8388608x2, .f32⟩
  | .hbm, ⟨16, _⟩ => ⟨S8388608x2, .f32⟩
  | .hbm, ⟨17, _⟩ => ⟨S8388608x1, .i32⟩
  | .hbm, ⟨18, _⟩ => ⟨S_, .i32⟩
  | .hbm, ⟨19, _⟩ => ⟨S8388608x1, .i32⟩
  | .hbm, ⟨20, _⟩ => ⟨S8388608x1, .i1⟩
  | .hbm, ⟨21, _⟩ => ⟨S_, .i32⟩
  | .hbm, ⟨22, _⟩ => ⟨S8388608x1, .i32⟩
  | .hbm, ⟨23, _⟩ => ⟨S8388608x1, .i32⟩
  | .hbm, ⟨24, _⟩ => ⟨S8388608x1, .i32⟩
  | .hbm, ⟨25, _⟩ => ⟨S8388608x1x1, .i32⟩
  | .hbm, ⟨26, _⟩ => ⟨S1, .i32⟩
  | .hbm, ⟨27, _⟩ => ⟨S_, .i32⟩
  | .hbm, ⟨28, _⟩ => ⟨S8388608x1x1, .i32⟩
  | .hbm, ⟨29, _⟩ => ⟨S8388608x1x1, .i1⟩
  | .hbm, ⟨30, _⟩ => ⟨S1x1x1, .i32⟩
  | .hbm, ⟨31, _⟩ => ⟨S8388608x1x1, .i32⟩
  | .hbm, ⟨32, _⟩ => ⟨S8388608x1x1, .i1⟩
  | .hbm, ⟨33, _⟩ => ⟨S8388608x1x1, .i1⟩
  | .hbm, ⟨34, _⟩ => ⟨S_, .i1⟩
  | .hbm, ⟨35, _⟩ => ⟨S8388608x1, .i1⟩
  | .hbm, ⟨36, _⟩ => ⟨S8388608x1, .f32⟩
  | .hbm, ⟨37, _⟩ => ⟨S_, .f32⟩
  | .hbm, ⟨38, _⟩ => ⟨S8388608x1, .f32⟩
  | .hbm, ⟨39, _⟩ => ⟨S8388608x1, .f32⟩
  | .hbm, ⟨40, _⟩ => ⟨S8388608, .f32⟩
  | .hbm, ⟨41, _⟩ => ⟨S_, .i32⟩
  | .hbm, ⟨42, _⟩ => ⟨S8388608, .i32⟩
  | .hbm, ⟨43, _⟩ => ⟨S8388608, .i1⟩
  | .hbm, ⟨44, _⟩ => ⟨S_, .i32⟩
  | .hbm, ⟨45, _⟩ => ⟨S8388608, .i32⟩
  | .hbm, ⟨46, _⟩ => ⟨S8388608, .i1⟩
  | .hbm, ⟨47, _⟩ => ⟨S8388608, .i32⟩
  | .hbm, ⟨48, _⟩ => ⟨S_, .i32⟩
  | .hbm, ⟨49, _⟩ => ⟨S_, .i32⟩
  | .hbm, ⟨50, _⟩ => ⟨S8388608, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S8388608, .f32⟩
  | .hbm, ⟨56, _⟩ => ⟨S8388608, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8388608, .f32⟩
  | .hbm, ⟨62, _⟩ => ⟨S8388608, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S_, .i1⟩
  | .hbm, ⟨67, _⟩ => ⟨S_, .f32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .i32⟩
  | .hbm, ⟨76, _⟩ => ⟨S_, .i1⟩
  | .hbm, ⟨77, _⟩ => ⟨S_, .f32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_c : Ref sig .tc := ⟨.hbm, 41, rfl⟩
abbrev main_v4 : Ref sig .tc := ⟨.hbm, 42, rfl⟩
abbrev main_v5 : Ref sig .tc := ⟨.hbm, 43, rfl⟩
abbrev main_c_0 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_c_1 : Ref sig .tc := ⟨.hbm, 48, rfl⟩
abbrev main_v9 : Ref sig .tc := ⟨.hbm, 49, rfl⟩
abbrev main_v10 : Ref sig .tc := ⟨.hbm, 50, rfl⟩
abbrev main_c_2 : Ref sig .tc := ⟨.hbm, 51, rfl⟩
abbrev main_v11 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_cst_4 : Ref sig .tc := ⟨.hbm, 59, rfl⟩
abbrev main_call3_v0 : Ref sig .tc := ⟨.hbm, 60, rfl⟩
abbrev main_call3_v1 : Ref sig .tc := ⟨.hbm, 61, rfl⟩
abbrev main_v14 : Ref sig .tc := ⟨.hbm, 62, rfl⟩
abbrev main_cst_5 : Ref sig .tc := ⟨.hbm, 63, rfl⟩
abbrev main_v15 : Ref sig .tc := ⟨.hbm, 64, rfl⟩
abbrev main_c_6 : Ref sig .tc := ⟨.hbm, 65, rfl⟩
abbrev main_v16 : Ref sig .tc := ⟨.hbm, 66, rfl⟩
abbrev main_v17 : Ref sig .tc := ⟨.hbm, 67, rfl⟩
abbrev main_c_7 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_8 : Ref sig .tc := ⟨.hbm, 72, rfl⟩
abbrev main_call4_v0 : Ref sig .tc := ⟨.hbm, 73, rfl⟩
abbrev main_v21 : Ref sig .tc := ⟨.hbm, 74, rfl⟩
abbrev main_c_9 : Ref sig .tc := ⟨.hbm, 75, rfl⟩
abbrev main_v22 : Ref sig .tc := ⟨.hbm, 76, rfl⟩
abbrev main_v23 : Ref sig .tc := ⟨.hbm, 77, rfl⟩
abbrev main_c_10 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_11 : Ref sig .tc := ⟨.hbm, 82, rfl⟩
abbrev main_call5_v0 : Ref sig .tc := ⟨.hbm, 83, rfl⟩
abbrev main_v27 : Ref sig .tc := ⟨.hbm, 84, rfl⟩
abbrev main_v28 : Ref sig .tc := ⟨.hbm, 85, rfl⟩

abbrev nD : Nat := 1
abbrev τ : Topo := Topo.v7x

variable {F : FTy → Type} [FloatOps F]

class Facts₀ : Prop where
  reducesTo_S8388608x2_S8388608_d1 : S8388608x2.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  natLt_1_32 : 1 < 32
  reducesTo_S8388608_S_d0 : S8388608.ReducesTo [0] S_
  gather_S8388608x2_S8388608x1x1_S8388608x1_n_1_0_0_1_2_11_wf : GatherDims.WF S8388608x2 S8388608x1x1 S8388608x1 [] [1] [0] [1] [0] 2 ![1, 1]

variable [Facts₀]

def gather_S8388608x2_S8388608x1x1_S8388608x1_n_1_0_0_1_2_11 : GatherDims S8388608x2 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x2_S8388608x1x1_S8388608x1_n_1_0_0_1_2_11_wf

class Facts : Prop extends Facts₀ where

variable [Facts]
-- ==== Proof.KPieces.lean ====
/-
  What one grid point leaves in the accumulator block.

  The kernel's output block is a 1×4 row of running totals: column 0 the sum of picked log-probabilities over rows of
  class 1, column 1 the same for class 0, columns 2 and 3 the two row counts. At every grid point the body computes the
  four partial results of its block of 16384 rows and adds each to its column, one 1×1 store per column; at the first
  point it stores a row of zeros first. A buffer's contents after a list of stores are read newest store first: a 1×1
  store at column j is what column j reads and leaves the other columns alone, and the store of a whole row is what every
  column reads. So after a later point column k holds what it held plus the block's k-th partial result, and after the
  first point zero plus it.
-/
import proofs.«400405_j20624432955694_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen
variable {F : FTy → Type} [FloatOps F]

theorem hz2 : (![0, 0] : Fin 2 → Nat) = fun _ => 0 := funext fun a => by fin_cases a <;> rfl

/-- The one index of a 1×1 vector. -/
abbrev u00 : S1x1.Idx := ix2 (0 : Fin 1) (0 : Fin 1)
/-- Column `k` of the 1×4 accumulator block. -/
abbrev col (k : Fin 4) : S1x4.Idx := ix2 (0 : Fin 1) k

section Lists
variable {sig' : RefSig} {κ : Kind} {sp : Space} (v : View sig' κ sp S1x4 .f32) (f : v.ty.Contents (Elt F))
variable (i0 : ∀ a, (![0, 0] : Fin 2 → ℕ) a + (![1, 1] : Fin 2 → ℕ) a ≤ S1x4.size a)
variable (i1 : ∀ a, (![0, 1] : Fin 2 → ℕ) a + (![1, 1] : Fin 2 → ℕ) a ≤ S1x4.size a)
variable (i2 : ∀ a, (![0, 2] : Fin 2 → ℕ) a + (![1, 1] : Fin 2 → ℕ) a ≤ S1x4.size a)
variable (i3 : ∀ a, (![0, 3] : Fin 2 → ℕ) a + (![1, 1] : Fin 2 → ℕ) a ≤ S1x4.size a)
variable (iz : ∀ a, (![0, 0] : Fin 2 → ℕ) a + S1x4.size a ≤ S1x4.size a)
variable (w0 : (Rect.unit (s := S1x4) ![0, 0] ![1, 1] i0).shape.Idx → Elt F .f32)
variable (w1 : (Rect.unit (s := S1x4) ![0, 1] ![1, 1] i1).shape.Idx → Elt F .f32)
variable (w2 : (Rect.unit (s := S1x4) ![0, 2] ![1, 1] i2).shape.Idx → Elt F .f32)
variable (w3 : (Rect.unit (s := S1x4) ![0, 3] ![1, 1] i3).shape.Idx → Elt F .f32)
variable (z : (Rect.unit (s := S1x4) ![0, 0] S1x4.size iz).shape.Idx → Elt F .f32)
variable (L : List (View.Piece (Elt F) S1x4 .f32))

/-- A 1×1 store at column `j` is what column `j` reads, whatever was stored before. -/
theorem hit0 : v.read (Elt F) (v.writes (Elt F) f (⟨Rect.unit ![0, 0] ![1, 1] i0, w0⟩ :: L)) (col 0) = w0 u00 :=
  View.read_writes_cons_unit_of_mem v f i0 w0 L (col 0) u00 rfl (by intro a; fin_cases a <;> rfl)
theorem hit1 : v.read (Elt F) (v.writes (Elt F) f (⟨Rect.unit ![0, 1] ![1, 1] i1, w1⟩ :: L)) (col 1) = w1 u00 :=
  View.read_writes_cons_unit_of_mem v f i1 w1 L (col 1) u00 rfl (by intro a; fin_cases a <;> rfl)
theorem hit2 : v.read (Elt F) (v.writes (Elt F) f (⟨Rect.unit ![0, 2] ![1, 1] i2, w2⟩ :: L)) (col 2) = w2 u00 :=
  View.read_writes_cons_unit_of_mem v f i2 w2 L (col 2) u00 rfl (by intro a; fin_cases a <;> rfl)
theorem hit3 : v.read (Elt F) (v.writes (Elt F) f (⟨Rect.unit ![0, 3] ![1, 1] i3, w3⟩ :: L)) (col 3) = w3 u00 :=
  View.read_writes_cons_unit_of_mem v f i3 w3 L (col 3) u00 rfl (by intro a; fin_cases a <;> rfl)
/-- The store of a whole block is what every column reads. -/
theorem hitz (k : Fin 4) : v.read (Elt F) (v.writes (Elt F) f (⟨Rect.unit ![0, 0] S1x4.size iz, z⟩ :: L)) (col k) = z (col k) :=
  View.read_writes_cons_unit_of_mem v f iz z L (col k) (col k) rfl (by intro a; fin_cases a <;> simp)

/-- A 1×1 store at column `j` leaves every other column as it was. -/
theorem skip0 (k : Fin 4) (hk : k.val ≠ 0) :
    v.read (Elt F) (v.writes (Elt F) f (⟨Rect.unit ![0, 0] ![1, 1] i0, w0⟩ :: L)) (col k) = v.read (Elt F) (v.writes (Elt F) f L) (col k) :=
  View.read_writes_cons_unit_of_not_mem v f i0 w0 L (col k) rfl (1 : Fin 2) (by
    show (k.val < 0 ∨ 0 + 1 ≤ k.val); omega)
theorem skip1 (k : Fin 4) (hk : k.val ≠ 1) :
    v.read (Elt F) (v.writes (Elt F) f (⟨Rect.unit ![0, 1] ![1, 1] i1, w1⟩ :: L)) (col k) = v.read (Elt F) (v.writes (Elt F) f L) (col k) :=
  View.read_writes_cons_unit_of_not_mem v f i1 w1 L (col k) rfl (1 : Fin 2) (by
    show (k.val < 1 ∨ 1 + 1 ≤ k.val); omega)
theorem skip2 (k : Fin 4) (hk : k.val ≠ 2) :
    v.read (Elt F) (v.writes (Elt F) f (⟨Rect.unit ![0, 2] ![1, 1] i2, w2⟩ :: L)) (col k) = v.read (Elt F) (v.writes (Elt F) f L) (col k) :=
  View.read_writes_cons_unit_of_not_mem v f i2 w2 L (col k) rfl (1 : Fin 2) (by
    show (k.val < 2 ∨ 2 + 1 ≤ k.val); omega)
theorem skip3 (k : Fin 4) (hk : k.val ≠ 3) :
    v.read (Elt F) (v.writes (Elt F) f (⟨Rect.unit ![0, 3] ![1, 1] i3, w3⟩ :: L)) (col k) = v.read (Elt F) (v.writes (Elt F) f L) (col k) :=
  View.read_writes_cons_unit_of_not_mem v f i3 w3 L (col k) rfl (1 : Fin 2) (by
    show (k.val < 3 ∨ 3 + 1 ≤ k.val); omega)

end Lists

/-- The 1×1 rectangle at column `k` holds exactly that column. -/
theorem idx_col0 (i0) : (Rect.unit (s := S1x4) ![0, 0] ![1, 1] i0).idx u00 = col 0 := funext fun a => Fin.ext (by fin_cases a <;> rfl)
theorem idx_col1 (i1) : (Rect.unit (s := S1x4) ![0, 1] ![1, 1] i1).idx u00 = col 1 := funext fun a => Fin.ext (by fin_cases a <;> rfl)
theorem idx_col2 (i2) : (Rect.unit (s := S1x4) ![0, 2] ![1, 1] i2).idx u00 = col 2 := funext fun a => Fin.ext (by fin_cases a <;> rfl)
theorem idx_col3 (i3) : (Rect.unit (s := S1x4) ![0, 3] ![1, 1] i3).idx u00 = col 3 := funext fun a => Fin.ext (by fin_cases a <;> rfl)

/-- A later point (the accumulator is not reset): column 0 ends at what it held plus this block's partial result. -/
theorem out_B_0 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : ¬cond0_0 i) (x0 : Vec F S16384x2 .f32) (x1 : Vec F S16384x1 .i32) (xo : Vec F S1x4 .f32) :
    out0_B_2 c i a1 h1 a2 h2 a3 h3 hc x0 x1 xo (col 0) = FloatOps.addf (xo (col 0)) (k0_pay10 x0 x1 u00) := by
  unfold out0_B_2 kernelRun0_B
  dsimp only
  sl_unfold_words
  rw [skip3 _ _ _ _ _ (0 : Fin 4) (by decide), skip2 _ _ _ _ _ (0 : Fin 4) (by decide), skip1 _ _ _ _ _ (0 : Fin 4) (by decide), hit0]
  unfold k0_pay1
  simp only [View.readAt_eq_ld, h1.read_unread, h2.read_unread, View.ld_unit_zero (S := S16384x1) hz2, View.ld_unit_zero (S := S16384x2) hz2, shapeCast_self, h3.read_unread]
  show FloatOps.addf (xo ((Rect.unit (s := S1x4) ![0, 0] ![1, 1] inb_S1x4_S1x1_0_0).idx u00)) _ = _
  rw [idx_col0]

/-- The first point (the accumulator is zeroed first): column 0 ends at zero plus this block's partial result. -/
theorem out_A_0 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : cond0_0 i) (x0 : Vec F S16384x2 .f32) (x1 : Vec F S16384x1 .i32) :
    out0_A_2 c i a1 h1 a2 h2 a3 h3 hc x0 x1 (col 0) = FloatOps.addf (Scalar.ofBits .f32 0x00000000#32) (k0_pay10 x0 x1 u00) := by
  unfold out0_A_2 kernelRun0_A
  dsimp only
  sl_unfold_words
  rw [skip3 _ _ _ _ _ (0 : Fin 4) (by decide), skip2 _ _ _ _ _ (0 : Fin 4) (by decide), skip1 _ _ _ _ _ (0 : Fin 4) (by decide), hit0]
  unfold k0_pay1
  simp only [View.readCov, View.readAt_eq_ld, h1.read_unread, h2.read_unread, View.ld_unit_zero (S := S16384x1) hz2, View.ld_unit_zero (S := S16384x2) hz2, shapeCast_self]
  show FloatOps.addf (a3.view.read (Elt F) (a3.view.writes (Elt F) a3.view.junk _) ((Rect.unit (s := S1x4) ![0, 0] ![1, 1] inb_S1x4_S1x1_0_0).idx u00)) _ = _
  rw [idx_col0, hitz _ _ _ _ _ (0 : Fin 4)]
  rfl

/-- A later point (the accumulator is not reset): column 1 ends at what it held plus this block's partial result. -/
theorem out_B_1 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : ¬cond0_0 i) (x0 : Vec F S16384x2 .f32) (x1 : Vec F S16384x1 .i32) (xo : Vec F S1x4 .f32) :
    out0_B_2 c i a1 h1 a2 h2 a3 h3 hc x0 x1 xo (col 1) = FloatOps.addf (xo (col 1)) (k0_pay11 x0 x1 u00) := by
  unfold out0_B_2 kernelRun0_B
  dsimp only
  sl_unfold_words
  rw [skip3 _ _ _ _ _ (1 : Fin 4) (by decide), skip2 _ _ _ _ _ (1 : Fin 4) (by decide), hit1]
  unfold k0_pay2
  simp only [View.readAt_eq_ld, h1.read_unread, h2.read_unread, View.ld_unit_zero (S := S16384x1) hz2, View.ld_unit_zero (S := S16384x2) hz2, shapeCast_self, h3.read_unread]
  show FloatOps.addf (xo ((Rect.unit (s := S1x4) ![0, 1] ![1, 1] inb_S1x4_S1x1_0_1).idx u00)) _ = _
  rw [idx_col1]

/-- The first point (the accumulator is zeroed first): column 1 ends at zero plus this block's partial result. -/
theorem out_A_1 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : cond0_0 i) (x0 : Vec F S16384x2 .f32) (x1 : Vec F S16384x1 .i32) :
    out0_A_2 c i a1 h1 a2 h2 a3 h3 hc x0 x1 (col 1) = FloatOps.addf (Scalar.ofBits .f32 0x00000000#32) (k0_pay11 x0 x1 u00) := by
  unfold out0_A_2 kernelRun0_A
  dsimp only
  sl_unfold_words
  rw [skip3 _ _ _ _ _ (1 : Fin 4) (by decide), skip2 _ _ _ _ _ (1 : Fin 4) (by decide), hit1]
  unfold k0_pay2
  simp only [View.readCov, View.readAt_eq_ld, h1.read_unread, h2.read_unread, View.ld_unit_zero (S := S16384x1) hz2, View.ld_unit_zero (S := S16384x2) hz2, shapeCast_self]
  show FloatOps.addf (a3.view.read (Elt F) (a3.view.writes (Elt F) a3.view.junk _) ((Rect.unit (s := S1x4) ![0, 1] ![1, 1] inb_S1x4_S1x1_0_1).idx u00)) _ = _
  rw [idx_col1, skip0 _ _ _ _ _ (1 : Fin 4) (by decide), hitz _ _ _ _ _ (1 : Fin 4)]
  rfl

/-- A later point (the accumulator is not reset): column 2 ends at what it held plus this block's partial result. -/
theorem out_B_2 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : ¬cond0_0 i) (x0 : Vec F S16384x2 .f32) (x1 : Vec F S16384x1 .i32) (xo : Vec F S1x4 .f32) :
    out0_B_2 c i a1 h1 a2 h2 a3 h3 hc x0 x1 xo (col 2) = FloatOps.addf (xo (col 2)) (k0_pay12 x1 u00) := by
  unfold out0_B_2 kernelRun0_B
  dsimp only
  sl_unfold_words
  rw [skip3 _ _ _ _ _ (2 : Fin 4) (by decide), hit2]
  unfold k0_pay3
  simp only [View.readAt_eq_ld, h1.read_unread, h2.read_unread, View.ld_unit_zero (S := S16384x1) hz2, View.ld_unit_zero (S := S16384x2) hz2, shapeCast_self, h3.read_unread]
  show FloatOps.addf (xo ((Rect.unit (s := S1x4) ![0, 2] ![1, 1] inb_S1x4_S1x1_0_2).idx u00)) _ = _
  rw [idx_col2]

/-- The first point (the accumulator is zeroed first): column 2 ends at zero plus this block's partial result. -/
theorem out_A_2 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : cond0_0 i) (x0 : Vec F S16384x2 .f32) (x1 : Vec F S16384x1 .i32) :
    out0_A_2 c i a1 h1 a2 h2 a3 h3 hc x0 x1 (col 2) = FloatOps.addf (Scalar.ofBits .f32 0x00000000#32) (k0_pay12 x1 u00) := by
  unfold out0_A_2 kernelRun0_A
  dsimp only
  sl_unfold_words
  rw [skip3 _ _ _ _ _ (2 : Fin 4) (by decide), hit2]
  unfold k0_pay3
  simp only [View.readCov, View.readAt_eq_ld, h1.read_unread, h2.read_unread, View.ld_unit_zero (S := S16384x1) hz2, View.ld_unit_zero (S := S16384x2) hz2, shapeCast_self]
  show FloatOps.addf (a3.view.read (Elt F) (a3.view.writes (Elt F) a3.view.junk _) ((Rect.unit (s := S1x4) ![0, 2] ![1, 1] inb_S1x4_S1x1_0_2).idx u00)) _ = _
  rw [idx_col2, skip1 _ _ _ _ _ (2 : Fin 4) (by decide), skip0 _ _ _ _ _ (2 : Fin 4) (by decide), hitz _ _ _ _ _ (2 : Fin 4)]
  rfl

/-- A later point (the accumulator is not reset): column 3 ends at what it held plus this block's partial result. -/
theorem out_B_3 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : ¬cond0_0 i) (x0 : Vec F S16384x2 .f32) (x1 : Vec F S16384x1 .i32) (xo : Vec F S1x4 .f32) :
    out0_B_2 c i a1 h1 a2 h2 a3 h3 hc x0 x1 xo (col 3) = FloatOps.addf (xo (col 3)) (k0_pay13 x1 u00) := by
  unfold out0_B_2 kernelRun0_B
  dsimp only
  sl_unfold_words
  rw [hit3]
  unfold k0_pay4
  simp only [View.readAt_eq_ld, h1.read_unread, h2.read_unread, View.ld_unit_zero (S := S16384x1) hz2, View.ld_unit_zero (S := S16384x2) hz2, shapeCast_self, h3.read_unread]
  show FloatOps.addf (xo ((Rect.unit (s := S1x4) ![0, 3] ![1, 1] inb_S1x4_S1x1_0_3).idx u00)) _ = _
  rw [idx_col3]

/-- The first point (the accumulator is zeroed first): column 3 ends at zero plus this block's partial result. -/
theorem out_A_3 (c : Dev nD) (i : grid0.Coords) (a1 : Memref sig .tc .vmem S16384x2 .f32) (h1 : a1.IsWhole)
    (a2 : Memref sig .tc .vmem S16384x1 .i32) (h2 : a2.IsWhole) (a3 : Memref sig .tc .vmem S1x4 .f32) (h3 : a3.IsWhole)
    (hc : cond0_0 i) (x0 : Vec F S16384x2 .f32) (x1 : Vec F S16384x1 .i32) :
    out0_A_2 c i a1 h1 a2 h2 a3 h3 hc x0 x1 (col 3) = FloatOps.addf (Scalar.ofBits .f32 0x00000000#32) (k0_pay13 x1 u00) := by
  unfold out0_A_2 kernelRun0_A
  dsimp only
  sl_unfold_words
  rw [hit3]
  unfold k0_pay4
  simp only [View.readCov, View.readAt_eq_ld, h1.read_unread, h2.read_unread, View.ld_unit_zero (S := S16384x1) hz2, View.ld_unit_zero (S := S16384x2) hz2, shapeCast_self]
  show FloatOps.addf (a3.view.read (Elt F) (a3.view.writes (Elt F) a3.view.junk _) ((Rect.unit (s := S1x4) ![0, 3] ![1, 1] inb_S1x4_S1x1_0_3).idx u00)) _ = _
  rw [idx_col3, skip2 _ _ _ _ _ (3 : Fin 4) (by decide), skip1 _ _ _ _ _ (3 : Fin 4) (by decide), skip0 _ _ _ _ _ (3 : Fin 4) (by decide), hitz _ _ _ _ _ (3 : Fin 4)]
  rfl

end Cert.KernelIdeal.Acc
end
-- ==== Proof.KAcc.lean ====
/-
  The accumulator after each grid point, by induction on the point.

  The block of rows the kernel sees at point t gives four partial results (`part`). After the first point each column
  of the accumulator is zero plus its partial result; after every later point it is what the point before left plus the
  new partial result. So the column after point n is the left-to-right running sum `run` of the partial results of
  points 0 … n, started from zero. Nothing here depends on what a float is: the statement holds at every instance.
-/
import proofs.«400405_j20624432955694_2_alg».proof.Proof.KPieces

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen
variable {F : FTy → Type} [FloatOps F]
variable (m : (ℓ : Loc nD τ sig) → Buf (Elt F) ℓ)

/-- The block of logits at point `t`: 16384 rows of two scores. -/
abbrev xblk (c : Dev nD) (t : Fin cfg0.N) : Vec F S16384x2 .f32 := iblk m c 0 t
/-- The block of targets at point `t`: 16384 words, as a column. -/
abbrev tblk (c : Dev nD) (t : Fin cfg0.N) : Vec F S16384x1 .i32 := iblk m c 1 t

/-- The four partial results of the block at point `t`. -/
def part (c : Dev nD) (t : Fin cfg0.N) : Fin 4 → F .f32
  | 0 => k0_pay10 (xblk m c t) (tblk m c t) u00
  | 1 => k0_pay11 (xblk m c t) (tblk m c t) u00
  | 2 => k0_pay12 (tblk m c t) u00
  | 3 => k0_pay13 (tblk m c t) u00

/-- The running sum of column `k` after point `n`: zero plus the partial results of points 0 … n, left to right. -/
def run (c : Dev nD) (k : Fin 4) : (n : ℕ) → n < cfg0.N → F .f32
  | 0, h => FloatOps.addf (Scalar.ofBits .f32 0x00000000#32) (part m c ⟨0, h⟩ k)
  | n + 1, h => FloatOps.addf (run c k n (Nat.lt_of_succ_lt h)) (part m c ⟨n + 1, h⟩ k)

/-- Column `k` of the accumulator after point `n` is the running sum. -/
theorem outsAt_col (c : Dev nD) (k : Fin 4) : ∀ (n : ℕ) (h : n < cfg0.N), outsAt0 m c n h (col k) = run m c k n h
  | 0, h => by
    rw [outsAt0_A m c ⟨0, h⟩ rfl]
    fin_cases k
    · exact out_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩)
    · exact out_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩)
    · exact out_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩)
    · exact out_A_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩)
  | n + 1, h => by
    have hN : cfg0.N = 512 := N_0
    have hB : ¬(⟨n + 1, h⟩ : Fin cfg0.N).val % 512 = 0 := by dsimp only; omega
    rw [outsAt0_B m c ⟨n + 1, h⟩ hB]
    have ih := outsAt_col c k n (Nat.lt_of_succ_lt h)
    fin_cases k
    · refine (out_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩) _).trans ?_
      exact congrArg (fun z => FloatOps.addf z (part m c ⟨n + 1, h⟩ 0)) ih
    · refine (out_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩) _).trans ?_
      exact congrArg (fun z => FloatOps.addf z (part m c ⟨n + 1, h⟩ 1)) ih
    · refine (out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩) _).trans ?_
      exact congrArg (fun z => FloatOps.addf z (part m c ⟨n + 1, h⟩ 2)) ih
    · refine (out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩) _).trans ?_
      exact congrArg (fun z => FloatOps.addf z (part m c ⟨n + 1, h⟩ 3)) ih

end Cert.KernelIdeal.Acc
end
-- ==== Proof.KFinal.lean ====
/-
  The accumulator array after the run, and the run with the result named.

  The output window's block index never moves, so its block is written back once, after the last grid point, and that
  one block is the whole 1×4 array: the array ends holding the accumulator as the last point leaves it. The host
  operations after the region read the four columns of that array and form the two class means and their sum.
-/
import proofs.«400405_j20624432955694_2_alg».proof.Proof.KAcc
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Idealize.ShloMosaic.StableHlo
variable {F : FTy → Type} [FloatOps F]
variable (m : (ℓ : Loc nD τ sig) → Buf (Elt F) ℓ) (ρ : Dev nD → PrngReg)

attribute [local irreducible] Cert.KernelIdeal.Gen.outsAt0

theorem hlast : 511 < cfg0.N := by rw [show cfg0.N = 512 from N_0]; decide
/-- The last grid point. -/
abbrev tLast : Fin cfg0.N := ⟨511, hlast⟩

/-- The accumulator as the last point leaves it, as contents of the result array. -/
abbrev total (c : Dev nD) : Buf (Elt F) ((c : Thread nD τ).loc main_v1) := outsAt0 m c tLast.val tLast.isLt

/-- The one write-back writes it: the block at index (0, 0) of the 1×4 array, read through zero offsets, is the array. -/
theorem flushed_eq (c : Dev nD) (t : Fin cfg0.N) (hf : (cfg0.win 2).flush t = true) :
    (dats m 0 c).flushed 2 t = ((cfg0.win 2).blk t).view.read (Elt F) (total m c) := by
  have hN : cfg0.N = 512 := N_0
  have h511 : t.val = 511 := by have := (flush0_2 t).mp hf; have := t.isLt; omega
  obtain rfl : t = tLast := Fin.ext h511
  show (cfg0.win 2).cut (grid0.coords tLast) ((dats m 0 c).after 2 tLast) = ((cfg0.win 2).blk tLast).view.read (Elt F) (outsAt0 m c tLast.val tLast.isLt)
  rw [after0_2]
  generalize outsAt0 m c tLast.val tLast.isLt = G
  have hz' : (fun a => win0_2.index tLast a * main_v1.ty.shape.size a) = fun _ => 0 := funext fun a => by fin_cases a <;> decide +kernel
  exact (Memref.read_access_unit_zero (Elt F) main_v1 hz' (fun a => by rw [congrFun hz' a]; simp) G).symm

/-- So the result array ends holding the accumulator after the last point: that point's block covers the array. -/
theorem final_arr (c : Dev nD) : (dats m 0 c).arrAt 2 cfg0.N = total m c :=
  (dats m 0 c).arrAt_eq_of_cover 2 (total m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 4 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 4 from by decide +kernel]; omega⟩

/-- Column `k` of the accumulator array as a scalar: the 1×1 slice at (0, k), reshaped to rank 0. -/
abbrev col0s (A : FVec F S1x4 .f32) : FVec F S_ .f32 := shapeCast S_ (extractStridedSlice S1x1 ![0, 0] A slices_S1x4_S1x1_0_0) shapeCasts_S1x1_S_
abbrev col1s (A : FVec F S1x4 .f32) : FVec F S_ .f32 := shapeCast S_ (extractStridedSlice S1x1 ![0, 1] A slices_S1x4_S1x1_0_1) shapeCasts_S1x1_S_
abbrev col2s (A : FVec F S1x4 .f32) : FVec F S_ .f32 := shapeCast S_ (extractStridedSlice S1x1 ![0, 2] A slices_S1x4_S1x1_0_2) shapeCasts_S1x1_S_
abbrev col3s (A : FVec F S1x4 .f32) : FVec F S_ .f32 := shapeCast S_ (extractStridedSlice S1x1 ![0, 3] A slices_S1x4_S1x1_0_3) shapeCasts_S1x1_S_

/-- A class mean as the host computes it from a sum `s` and a count `n`: -s / max (n, 1) where n > 0, else 0. -/
def meanOf (s n : FVec F S_ .f32) : FVec F S_ .f32 :=
  select (cmpf .ogt n (constant S_ .f32 0x00000000#32))
    (Host.divf (Host.negf s) (maximumf n (constant S_ .f32 0x3F800000#32))) (id (constant S_ .f32 0x00000000#32))

/-- The host operations after the region, as one function of the accumulator array: the class-0 mean (columns 1 and 3)
    plus the class-1 mean (columns 0 and 2). -/
def tailOf (A : FVec F S1x4 .f32) : FVec F S_ .f32 :=
  addf (meanOf (col1s A) (col3s A)) (meanOf (col0s A) (col2s A))

set_option maxHeartbeats 2000000 in
/-- The result buffer after the host operations that follow the region, from any contents `W` they start from. -/
theorem tail_of_W (W : Valuation τ sig (Elt F)) :
    StableHlo.after (List.flatten [hostOps1, hostOps1_1, hostOps1_2, hostOps1_3, hostOps1_4]) W (Proc.devRef .tc main_v20)
      = tailOf (W (Proc.devRef .tc main_v1)) := by
  simp only [hostOps1, hostOps1_1, hostOps1_2, hostOps1_3, hostOps1_4, List.flatten_cons, List.flatten_nil, List.append_nil, List.cons_append, List.nil_append]
  after_results_simp
  rfl

/-- The result buffer after the run is the host tail of the accumulator as the last point leaves it. -/
theorem tail_eq (c : Dev nD) :
    Pipeline.afterTail₀ cfgs (dats m) 0 (V0 m) [hostOps1, hostOps1_1, hostOps1_2, hostOps1_3, hostOps1_4] c main_v20 = tailOf (total m c) := by
  unfold Pipeline.afterTail₀
  rw [tail_of_W]
  exact congrArg tailOf ((Pipeline.withArrays_arr spec0 launch0.win.arr_inj c _ _ 2).trans (final_arr m c))

/-- The run, read: every weakly fair execution terminates with the result buffer at the host tail of the final
    accumulator and both arguments unchanged. -/
theorem kernel_run : θ_run defs (onTc (τ := τ) (main (F := F))) ⟨m, fun _ => 0, ρ⟩ fun r => ∀ c : Dev nD,
      r.2.mem ((c.tc : Thread nD τ).loc main_v20) = tailOf (total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Acc
end
-- ==== Proof.Spec.lean ====
/-
  The loss both programs compute, as mathematics over the extended reals.

  The input is a table of logits, 8388608 rows of two class scores, and one 32-bit target word per row.
  Row by row, with m = max (x₀, x₁) and L = log (exp (x₀ - m) + exp (x₁ - m)), the log-probability of class c is
  x_c - m - L. It is written here in the two groupings the programs use: x_c - (m + L) and (x_c - m) - L.
  They agree whenever the scores are real numbers; on the extended reals they need not (at x₀ = ⊤ the first is ⊤
  and the second ⊥), which is why the equality of the two losses is stated for finite logits.

  Four sums over the rows follow: the log-probability of class 1 over the rows whose target is the word 1, that of
  class 0 over the rows whose target is the word 0, and the two counts of such rows. A row whose target is any other
  word enters none of the four. The loss is the sum of the two class means of the negated log-probabilities, a class
  with no row contributing 0. One arrangement counts in the extended reals (a sum of ones), the other in the naturals
  (the cardinality of the set of rows); `lossK` and `lossR` are the two arrangements.
-/
import Idealize.ShloMosaic.PureOps.Ideal
import Idealize.ShloMosaic.Lib.ValueIdx

noncomputable section

open Idealize.ShloMosaic Idealize.ShloMosaic.ValueIdx

namespace Cert.Loss

/-- The logits: 8388608 rows of two class scores, as extended reals. -/
abbrev Logits : Type := (⟨2, ![8388608, 2]⟩ : Shape).Idx → EReal
/-- The targets: one 32-bit word per row. -/
abbrev Targets : Type := (⟨1, ![8388608]⟩ : Shape).Idx → BitVec 32

/-- A row's larger score. -/
def rowMax (x : Logits) (r : Fin 8388608) : EReal := max (x (ix2 r (0 : Fin 2))) (x (ix2 r (1 : Fin 2)))

/-- A row's log-sum-exp after the shift by its maximum: log (exp (x₀ - m) + exp (x₁ - m)). -/
def rowLse (x : Logits) (r : Fin 8388608) : EReal :=
  Ideal.log (Ideal.exp (x (ix2 r (0 : Fin 2)) - rowMax x r) + Ideal.exp (x (ix2 r (1 : Fin 2)) - rowMax x r))

/-- The log-probability of class `c` in row `r`, grouped as x_c - (m + L). -/
def logpK (x : Logits) (r : Fin 8388608) (c : Fin 2) : EReal := x (ix2 r c) - (rowMax x r + rowLse x r)

/-- The same, grouped as (x_c - m) - L. -/
def logpR (x : Logits) (r : Fin 8388608) (c : Fin 2) : EReal := (x (ix2 r c) - rowMax x r) - rowLse x r

/-- The sum of `f` over the rows whose target is the word `w`; every other row contributes 0. -/
def sumWhere (t : Targets) (w : BitVec 32) (f : Fin 8388608 → EReal) : EReal :=
  ∑ r : Fin 8388608, if t (ix1 r) = w then f r else 0

/-- The number of rows whose target is the word `w`. -/
def cardWhere (t : Targets) (w : BitVec 32) : ℕ := (Finset.univ.filter fun r : Fin 8388608 => t (ix1 r) = w).card

/-- A class mean of the negated sum `s` when the class's count `n` is an extended real: -s / max (n, 1) for a
    positive count, 0 for an absent class. -/
def meanE (s n : EReal) : EReal := if 0 < n then Ideal.div (-s) (max n 1) else 0

/-- The same when the count is a natural number. -/
def meanN (s : EReal) (n : ℕ) : EReal := if 0 < n then Ideal.div (-s) (((max n 1 : ℕ) : ℝ) : EReal) else 0

/-- The loss with log-probabilities grouped as x - (m + L) and rows counted by a sum of ones. -/
def lossK (x : Logits) (t : Targets) : EReal :=
  meanE (sumWhere t 0#32 fun r => logpK x r 0) (sumWhere t 0#32 fun _ => 1)
    + meanE (sumWhere t 1#32 fun r => logpK x r 1) (sumWhere t 1#32 fun _ => 1)

/-- The loss with log-probabilities grouped as (x - m) - L and rows counted by cardinality. -/
def lossR (x : Logits) (t : Targets) : EReal :=
  meanN (sumWhere t 0#32 fun r => logpR x r 0) (cardWhere t 0#32)
    + meanN (sumWhere t 1#32 fun r => logpR x r 1) (cardWhere t 1#32)

/-- Every logit is a real number. -/
def Finite (x : Logits) : Prop := ∀ i, ∃ v : ℝ, x i = (v : EReal)

end Cert.Loss

end
-- ==== Proof.KSum.lean ====
/-
  At the exact instance: sums.

  Over the extended reals addition is commutative and associative, zero is neutral, so the left-to-right running sum
  of the points' partial results is their finite sum, and a sum over the 8388608 rows of the table is the sum over the
  512 grid points of the sums over each point's 16384 rows (row t·16384 + k is row k of point t). The host operations
  after the region turn the four columns of the accumulator into the two guarded class means and add them.
-/
import proofs.«400405_j20624432955694_2_alg».proof.Proof.KFinal
import proofs.«400405_j20624432955694_2_alg».proof.Proof.Spec
import Idealize.ShloMosaic.PureOps.Ideal.Laws
import Mathlib.Algebra.BigOperators.Fin
import Mathlib.Logic.Equiv.Fin.Basic

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen
variable (m : (ℓ : Loc nD τ sig) → Buf (Elt Ideal) ℓ)

/-- The running sum after point `n` is the sum of the partial results of points 0 … n. -/
theorem run_eq_sum (c : Dev nD) (k : Fin 4) : ∀ (n : ℕ) (h : n < cfg0.N),
    run (F := Ideal) m c k n h = ∑ i : Fin (n + 1), part m c ⟨i.val, lt_of_lt_of_le i.isLt h⟩ k
  | 0, h => by
    show Ideal.ofBits .f32 0x00000000#32 + part m c ⟨0, h⟩ k = _
    rw [Ideal.ofBits_zero_f32, zero_add, Fin.sum_univ_one]
    rfl
  | n + 1, h => by
    show run (F := Ideal) m c k n (Nat.lt_of_succ_lt h) + part m c ⟨n + 1, h⟩ k = _
    rw [run_eq_sum c k n (Nat.lt_of_succ_lt h)]
    exact (Fin.sum_univ_castSucc (fun i : Fin (n + 1 + 1) => part m c ⟨i.val, lt_of_lt_of_le i.isLt h⟩ k)).symm

/-- A sum over the table's rows is the sum over the grid points of the sums over each point's rows. -/
theorem sum_rows (g : Fin 8388608 → EReal) (row : Fin 512 → Fin 16384 → Fin 8388608)
    (hrow : ∀ t k, (row t k).val = t.val * 16384 + k.val) :
    ∑ r : Fin 8388608, g r = ∑ t : Fin 512, ∑ k : Fin 16384, g (row t k) := by
  have e := Equiv.sum_comp (finProdFinEquiv (m := 512) (n := 16384)) (fun r : Fin (512 * 16384) => g r)
  rw [Fintype.sum_prod_type] at e
  refine e.symm.trans (Finset.sum_congr rfl fun t _ => Finset.sum_congr rfl fun k _ => congrArg g (Fin.ext ?_))
  rw [hrow]
  show k.val + 16384 * t.val = _
  omega

/-- A class mean as the host computes it is the guarded quotient of the specification. -/
theorem meanOf_apply (s n : FVec Ideal S_ .f32) (i : S_.Idx) :
    meanOf (F := Ideal) s n i = Cert.Loss.meanE (s i) (n i) := by
  have h1 : Ideal.ofBits .f32 0x3F800000#32 = 1 := IdealRules.sign_bit.ideal_onePat .f32
  show Scalar.select (Ideal.cmp .ogt (n i) (Ideal.ofBits .f32 0x00000000#32))
      (Ideal.div (-(s i)) (max (n i) (Ideal.ofBits .f32 0x3F800000#32))) (Ideal.ofBits .f32 0x00000000#32) = _
  rw [Ideal.ofBits_zero_f32, h1]
  unfold Cert.Loss.meanE Ideal.cmp Scalar.select
  by_cases h : (0 : EReal) < n i
  · simp [h]
  · simp [h]

/-- Column `k` of the accumulator array as a scalar is its entry (0, k). -/
theorem col0s_apply (A : FVec Ideal S1x4 .f32) (i : S_.Idx) : col0s A i = A (col 0) := by
  refine (shapeCast_apply _ _ i u00 ?_).trans ?_
  · have h0 : (S_.rowMajor i).val = 0 := by
      have := (S_.rowMajor i).isLt
      have hn : S_.numel = 1 := by decide
      omega
    rw [Shape.rowMajor_val_two, h0]; rfl
  · exact congrArg A (funext fun a => Fin.ext (by fin_cases a <;> rfl))
theorem col1s_apply (A : FVec Ideal S1x4 .f32) (i : S_.Idx) : col1s A i = A (col 1) := by
  refine (shapeCast_apply _ _ i u00 ?_).trans ?_
  · have h0 : (S_.rowMajor i).val = 0 := by
      have := (S_.rowMajor i).isLt
      have hn : S_.numel = 1 := by decide
      omega
    rw [Shape.rowMajor_val_two, h0]; rfl
  · exact congrArg A (funext fun a => Fin.ext (by fin_cases a <;> rfl))
theorem col2s_apply (A : FVec Ideal S1x4 .f32) (i : S_.Idx) : col2s A i = A (col 2) := by
  refine (shapeCast_apply _ _ i u00 ?_).trans ?_
  · have h0 : (S_.rowMajor i).val = 0 := by
      have := (S_.rowMajor i).isLt
      have hn : S_.numel = 1 := by decide
      omega
    rw [Shape.rowMajor_val_two, h0]; rfl
  · exact congrArg A (funext fun a => Fin.ext (by fin_cases a <;> rfl))
theorem col3s_apply (A : FVec Ideal S1x4 .f32) (i : S_.Idx) : col3s A i = A (col 3) := by
  refine (shapeCast_apply _ _ i u00 ?_).trans ?_
  · have h0 : (S_.rowMajor i).val = 0 := by
      have := (S_.rowMajor i).isLt
      have hn : S_.numel = 1 := by decide
      omega
    rw [Shape.rowMajor_val_two, h0]; rfl
  · exact congrArg A (funext fun a => Fin.ext (by fin_cases a <;> rfl))

/-- The host tail of an accumulator array: the class-0 mean of columns 1 and 3 plus the class-1 mean of columns 0 and 2. -/
theorem tailOf_apply (A : FVec Ideal S1x4 .f32) (i : S_.Idx) :
    tailOf (F := Ideal) A i = Cert.Loss.meanE (A (col 1)) (A (col 3)) + Cert.Loss.meanE (A (col 0)) (A (col 2)) := by
  show meanOf (F := Ideal) (col1s A) (col3s A) i + meanOf (F := Ideal) (col0s A) (col2s A) i = _
  rw [meanOf_apply, meanOf_apply, col0s_apply, col1s_apply, col2s_apply, col3s_apply]

end Cert.KernelIdeal.Acc
end
-- ==== Proof.KRows.lean ====
/-
  A block's entries are the arrays' entries.

  The window over the logits stages, at grid point t, rows t·16384 … t·16384 + 16383 of the table, both columns; the
  window over the targets stages the same rows of the targets laid out as a column, and that column is the host's
  reshape of the target vector: entry (r, 0) of the column is entry r of the vector (the same row-major position).
-/
import proofs.«400405_j20624432955694_2_alg».proof.Proof.KAcc
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Idealize.ShloMosaic.StableHlo
variable {F : FTy → Type} [FloatOps F]
variable (m : (ℓ : Loc nD τ sig) → Buf (Elt F) ℓ)

/-- Both input windows' block index at point `t` is (t, 0): decided over the grid. -/
theorem idx0_facts : ∀ t : Fin cfg0.N, win0_0.index t 0 = t.val ∧ win0_0.index t 1 = 0 :=
  (by decide +kernel : ∀ t : Fin grid0.N, win0_0.index t 0 = t.val ∧ win0_0.index t 1 = 0)
theorem idx1_facts : ∀ t : Fin cfg0.N, win0_1.index t 0 = t.val ∧ win0_1.index t 1 = 0 :=
  (by decide +kernel : ∀ t : Fin grid0.N, win0_1.index t 0 = t.val ∧ win0_1.index t 1 = 0)

/-- The table row that block row `k` of point `t` is. -/
def rowOf (t : Fin cfg0.N) (k : Fin 16384) : Fin 8388608 :=
  ⟨t.val * 16384 + k.val, by have ht : t.val < 512 := lt_of_lt_of_eq t.isLt N_0; have := k.isLt; omega⟩

/-- The logits block at point `t` holds rows t·16384 + k of the table. -/
theorem xblk_apply (c : Dev nD) (t : Fin cfg0.N) (k : Fin 16384) (cc : Fin 2) :
    xblk m c t (ix2 k cc) = m ((c : Thread nD τ).loc main_arg0) (ix2 (rowOf t k) cc) := by
  show iblk m c 0 t (ix2 k cc) = _
  unfold iblk
  rw [View.read_apply]
  show V m c main_arg0 _ = m ((c : Thread nD τ).loc main_arg0) _
  refine (congrFun (V_main_arg0 m c) _).trans (congrArg _ (funext fun a => Fin.ext ?_))
  match a with
  | ⟨0, _⟩ => show win0_0.index t 0 * 16384 + 1 * k.val = t.val * 16384 + k.val; rw [(idx0_facts t).1]; omega
  | ⟨1, _⟩ => show win0_0.index t 1 * 2 + 1 * cc.val = cc.val; rw [(idx0_facts t).2]; omega

/-- The targets as the region finds them: the target vector reshaped to a column. -/
theorem V_targets (c : Dev nD) :
    (V m c main_v0 : S8388608x1.Idx → BitVec 32)
      = shapeCast S8388608x1 (m ((c : Thread nD τ).loc main_arg1)) shapeCasts_S8388608_S8388608x1 := by
  show StableHlo.after (List.flatten [hostOps0]) (fun b => m (c, b)) (Proc.devRef .tc main_v0) = _
  simp only [hostOps0, List.flatten_cons, List.flatten_nil, List.append_nil]
  after_results
  rfl

/-- The targets block at point `t` holds entries t·16384 + k of the target vector. -/
theorem tblk_apply (c : Dev nD) (t : Fin cfg0.N) (k : Fin 16384) :
    tblk m c t (ix2 k (0 : Fin 1)) = m ((c : Thread nD τ).loc main_arg1) (ix1 (rowOf t k)) := by
  show iblk m c 1 t (ix2 k (0 : Fin 1)) = _
  unfold iblk
  rw [View.read_apply]
  show (V m c main_v0 : S8388608x1.Idx → BitVec 32) _ = _
  rw [V_targets]
  refine shapeCast_apply _ _ _ (ix1 (rowOf t k)) ?_
  rw [Shape.rowMajor_val_one, Shape.rowMajor_val_two]
  show t.val * 16384 + k.val = (win0_1.index t 0 * 16384 + 1 * k.val) * 1 + (win0_1.index t 1 * 1 + 1 * 0)
  rw [(idx1_facts t).1, (idx1_facts t).2]; omega

end Cert.KernelIdeal.Acc
end
-- ==== Proof.BlockSpec.lean ====
/-
  One block of 16384 rows, as mathematics over the extended reals: the row maximum, the shifted log-sum-exp, the
  log-probability grouped as x_c - (m + L), and the sum of a row function over the rows of the block whose target is
  a given word. These are the block-sized counterparts of the whole-table definitions; a table's sum over its rows is
  the sum over its 512 blocks of the blocks' sums.
-/
import Idealize.ShloMosaic.PureOps.Ideal
import Idealize.ShloMosaic.Lib.ValueIdx

noncomputable section

open Idealize.ShloMosaic Idealize.ShloMosaic.ValueIdx

namespace Cert.Loss

/-- A block of logits: 16384 rows of two class scores. -/
abbrev BlockX : Type := (⟨2, ![16384, 2]⟩ : Shape).Idx → EReal
/-- A block of targets: 16384 words, as a column. -/
abbrev BlockT : Type := (⟨2, ![16384, 1]⟩ : Shape).Idx → BitVec 32

/-- A block row's larger score. -/
def bMax (x : BlockX) (k : Fin 16384) : EReal := max (x (ix2 k (0 : Fin 2))) (x (ix2 k (1 : Fin 2)))

/-- A block row's log-sum-exp after the shift by its maximum. -/
def bLse (x : BlockX) (k : Fin 16384) : EReal :=
  Ideal.log (Ideal.exp (x (ix2 k (0 : Fin 2)) - bMax x k) + Ideal.exp (x (ix2 k (1 : Fin 2)) - bMax x k))

/-- The log-probability of class `c` in block row `k`, grouped as x_c - (m + L). -/
def bLogp (x : BlockX) (k : Fin 16384) (c : Fin 2) : EReal := x (ix2 k c) - (bMax x k + bLse x k)

/-- The sum of `f` over the block rows whose target is the word `w`; every other row contributes 0. -/
def bSumWhere (t : BlockT) (w : BitVec 32) (f : Fin 16384 → EReal) : EReal :=
  ∑ k : Fin 16384, if t (ix2 k (0 : Fin 1)) = w then f k else 0

end Cert.Loss

end
-- ==== Proof.KBlock.lean ====
/-
  The kernel's four block payloads, read at the ideal values.

  For one block of 16384 rows (logits x, a 16384 × 2 table; target words t, a 16384 × 1 column) the kernel's body forms
  four 1 × 1 values: two masked sums of picked log-probabilities and two row counts. Each is a column of 16384 entries
  summed over its rows, so at its one index it is a sum over k : Fin 16384 of the column's entry at (k, 0).

  Row by row: m_k = max (x(k,0), x(k,1)) is a maximum over the two classes taken from -∞, which is the bottom of the
  extended reals and so drops out; L_k = log (exp (x(k,0) - m_k) + exp (x(k,1) - m_k)) is the logarithm of a sum over
  the two classes; the table of log-probabilities is x(k,c) - (m_k + L_k). The picked entry of row k is the class-1
  log-probability when the target word is 1 and the class-0 one otherwise; masked again by "the word is 1" it is the
  class-1 log-probability, and masked by "the word is 0" it is the class-0 one, since the word 0 is not the word 1.
  A count's column holds, in row k, the mask bit widened to a word and read as a number: 1 or 0.
-/
import proofs.«400405_j20624432955694_2_alg».proof.Proof.Gen.KernelIdeal.Skeleton
import proofs.«400405_j20624432955694_2_alg».proof.Proof.BlockSpec
import Idealize.ShloMosaic.PureOps.Ideal.Laws
import Idealize.ShloMosaic.Lib.Pipeline.Value
import Idealize.ShloMosaic.Lib.ValueLayout

noncomputable section

open Idealize.ShloMosaic Idealize.ShloMosaic.ValueIdx
open Cert.KernelIdeal Cert.KernelIdeal.Gen

namespace Cert.KernelIdeal.Block

/-! ## Reductions over the two classes, read at a row -/

/-- Row k of the reduced vector, with the class c put back, is the table's index (k, c). -/
theorem lift1_eq (h : S16384x2.Reduces [1] S16384) (k : Fin 16384) (c : Fin 2) :
    h.lift (ix1 k) c = ix2 k c :=
  funext fun a => Fin.ext (by match a with | ⟨0, _⟩ => rfl | ⟨1, _⟩ => rfl)

theorem univ_fin2 : (Finset.univ : Finset (Fin 2)) = {0, 1} := by decide

/-- A fold of max over the two classes from b is max (f 0) (max (f 1) b). -/
theorem fold_max_fin2 (b : EReal) (f : Fin 2 → EReal) :
    (Finset.univ : Finset (Fin 2)).fold max b f = max (f 0) (max (f 1) b) := by
  rw [univ_fin2, Finset.fold_insert (by decide), Finset.fold_singleton]

/-- The f32 pattern of -∞ denotes the bottom of the extended reals. -/
theorem ofBits_negInf : Ideal.ofBits .f32 0xFF800000#32 = ⊥ := by simp [Ideal.ofBits, Ideal.ieee]

/-- The maximum over the two classes from -∞, at row k, is the larger of the row's two entries. -/
theorem redMax_apply (x : FVec Ideal S16384x2 .f32) (h : S16384x2.Reduces [1] S16384) (hφ : FKind.Formats .f32)
    (hacc : (0xFF800000#32 : BitVec 32) = FKind.maximumf.neutral .f32 hφ) (k : Fin 16384) :
    multiReduction (F := Ideal) .maximumf [1] S16384 x 0xFF800000#32 h hφ hacc (ix1 k)
      = max (x (ix2 k (0 : Fin 2))) (x (ix2 k (1 : Fin 2))) := by
  refine (Ideal.multiReduction_maximumf_single x _ h hφ hacc (ix1 k)).trans ?_
  refine (fold_max_fin2 (Ideal.ofBits .f32 0xFF800000#32) (fun c => x (h.lift (ix1 k) c))).trans ?_
  show max (x (h.lift (ix1 k) (0 : Fin 2))) (max (x (h.lift (ix1 k) (1 : Fin 2))) (Ideal.ofBits .f32 0xFF800000#32)) = _
  rw [lift1_eq, lift1_eq, ofBits_negInf, max_bot_right]

/-- The sum over the two classes, at row k, is the sum of the row's two entries. -/
theorem redAdd_apply (x : FVec Ideal S16384x2 .f32) (h : S16384x2.Reduces [1] S16384) (hφ : FKind.Formats .f32)
    (hacc : (0x00000000#32 : BitVec 32) = FKind.add.neutral .f32 hφ) (k : Fin 16384) :
    multiReduction (F := Ideal) .add [1] S16384 x 0x00000000#32 h hφ hacc (ix1 k)
      = x (ix2 k (0 : Fin 2)) + x (ix2 k (1 : Fin 2)) := by
  refine (Ideal.multiReduction_add_single x _ h hφ hacc (ix1 k)).trans ?_
  refine (Fin.sum_univ_two (fun c : Fin 2 => x (h.lift (ix1 k) c))).trans ?_
  show x (h.lift (ix1 k) (0 : Fin 2)) + x (h.lift (ix1 k) (1 : Fin 2)) = _
  rw [lift1_eq, lift1_eq]

/-! ## The layout operations of a column, read at an index -/

/-- A vector of 16384 entries viewed as a column reads, at (k, u), its entry k. -/
theorem castCol_apply {α : Type} (x : S16384.Idx → α) (h : S16384.ShapeCasts S16384x1) (k : Fin 16384) (u : Fin 1) :
    shapeCast S16384x1 x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

/-- A column broadcast over the two classes reads, at (k, c), the column's row k. -/
theorem bcastCol_apply {α : Type} (v : S16384x1.Idx → α) (h : S16384x1.Broadcasts S16384x2) (k : Fin 16384) (c : Fin 2) :
    broadcastTo S16384x2 v h (ix2 k c) = v (ix2 k (0 : Fin 1)) := by
  refine broadcastTo_apply v h (ix2 k c) (ix2 k (0 : Fin 1)) fun ax => ?_
  match ax with
  | ⟨0, _⟩ => exact (if_neg (show ¬((16384 : Nat) = 1) by decide)).symm
  | ⟨1, _⟩ => rfl

/-- Class 0 cut out of the table as a column reads, at (k, 0), the table at (k, 0). -/
theorem slice0_apply (X : FVec Ideal S16384x2 .f32) (h : S16384x2.Slices ![0, 0] S16384x1) (k : Fin 16384) :
    extractStridedSlice S16384x1 ![0, 0] X h (ix2 k (0 : Fin 1)) = X (ix2 k (0 : Fin 2)) :=
  slice2_axis1_apply 0 X h k (0 : Fin 1) (0 : Fin 2) rfl

/-- Class 1 cut out of the table as a column reads, at (k, 0), the table at (k, 1). -/
theorem slice1_apply (X : FVec Ideal S16384x2 .f32) (h : S16384x2.Slices ![0, 1] S16384x1) (k : Fin 16384) :
    extractStridedSlice S16384x1 ![0, 1] X h (ix2 k (0 : Fin 1)) = X (ix2 k (1 : Fin 2)) :=
  slice2_axis1_apply 1 X h k (0 : Fin 1) (1 : Fin 2) rfl

/-- The one index of the reduced vector, with the row k put back, is the column's index (k, 0). -/
theorem lift0_eq (h : S16384x1.Reduces [0] S1) (k : Fin 16384) :
    h.lift (ix1 (0 : Fin 1)) k = ix2 k (0 : Fin 1) :=
  funext fun a => Fin.ext (by match a with | ⟨0, _⟩ => rfl | ⟨1, _⟩ => rfl)

/-- A column summed over its rows and viewed as a 1 × 1 vector reads, at its one index, the sum of the column. -/
theorem colSum_apply (v : FVec Ideal S16384x1 .f32) (h : S16384x1.Reduces [0] S1) (hφ : FKind.Formats .f32)
    (hacc : (0x00000000#32 : BitVec 32) = FKind.add.neutral .f32 hφ) (hc : S1.ShapeCasts S1x1) :
    shapeCast S1x1 (multiReduction (F := Ideal) .add [0] S1 v 0x00000000#32 h hφ hacc) hc (ix2 (0 : Fin 1) (0 : Fin 1))
      = ∑ k : Fin 16384, v (ix2 k (0 : Fin 1)) := by
  refine (shapeCast_a_1a_apply _ hc (0 : Fin 1) (0 : Fin 1)).trans ?_
  refine (Ideal.multiReduction_add_single v _ h hφ hacc (ix1 (0 : Fin 1))).trans ?_
  show ∑ k : Fin 16384, v (h.lift (ix1 (0 : Fin 1)) k) = _
  exact Finset.sum_congr rfl fun k _ => congrArg v (lift0_eq h k)

/-! ## A word compared with a constant, as a mask bit -/

/-- The equality test of two words is the bit 1 exactly when the words are equal. -/
theorem cmpi_eq_one_iff (a w : BitVec 32) : IntOp.cmpi .eq a w = 1#1 ↔ a = w := by
  show BitVec.ofBool (a == w) = 1#1 ↔ a = w
  by_cases h : a = w
  · subst h; rw [beq_self_eq_true]; exact ⟨fun _ => rfl, fun _ => rfl⟩
  · rw [beq_eq_false_iff_ne.2 h]; exact ⟨fun h' => absurd h' (by decide), fun h' => absurd h' h⟩

/-- A choice under the equality test of two words is the choice under their equality. -/
theorem select_cmpi_eq {α : Type} (a w : BitVec 32) (A B : α) :
    Scalar.select (IntOp.cmpi .eq a w) A B = if a = w then A else B := by
  unfold Scalar.select
  by_cases h : a = w
  · rw [if_pos h]; exact if_pos ((cmpi_eq_one_iff a w).2 h)
  · rw [if_neg h]; exact if_neg (fun h' => h ((cmpi_eq_one_iff a w).1 h'))

/-- The equality test's bit, widened to a word and read as a signed integer, is 1 for equal words and 0 otherwise. -/
theorem count_bit (a w : BitVec 32) :
    (FloatOps.sitofp (F := Ideal) .f32 ((IntOp.cmpi .eq a w).setWidth 32) : EReal) = if a = w then 1 else 0 := by
  show (((((IntOp.cmpi .eq a w).setWidth 32).toInt : ℝ)) : EReal) = _
  by_cases h : a = w
  · have e : IntOp.cmpi .eq a w = 1#1 := (cmpi_eq_one_iff a w).2 h
    have e1 : ((1#1 : BitVec 1).setWidth 32).toInt = 1 := by decide
    rw [e, if_pos h, e1]; simp
  · have e : IntOp.cmpi .eq a w = 0#1 := eq_zero_of_ne_one (fun h' => h ((cmpi_eq_one_iff a w).1 h'))
    have e0 : ((0#1 : BitVec 1).setWidth 32).toInt = 0 := by decide
    rw [e, if_neg h, e0]; simp

/-! ## The block's columns: row maximum, shifted exponentials, log-sum-exp, log-probabilities -/

theorem vlog_apply (v : FVec Ideal S16384x1 .f32) (i : S16384x1.Idx) : log v i = Ideal.log (v i) := rfl
theorem vexp_apply (v : FVec Ideal S16384x2 .f32) (i : S16384x2.Idx) : exp v i = Ideal.exp (v i) := rfl

/-- The column of row maxima. -/
def maxCol (x : FVec Ideal S16384x2 .f32) : FVec Ideal S16384x1 .f32 :=
  shapeCast S16384x1 (multiReduction (F := Ideal) .maximumf [1] S16384 x 0xFF800000#32 reduces_S16384x2_S16384 (.inl rfl) rfl)
    shapeCasts_S16384_S16384x1

theorem maxCol_apply (x : FVec Ideal S16384x2 .f32) (k : Fin 16384) : maxCol x (ix2 k (0 : Fin 1)) = Cert.Loss.bMax x k :=
  (castCol_apply _ _ k (0 : Fin 1)).trans (redMax_apply x _ _ _ k)

/-- The table exp (x - m), the row maximum m subtracted from both classes. -/
def shifted (x : FVec Ideal S16384x2 .f32) : FVec Ideal S16384x2 .f32 :=
  exp (subf x (broadcastTo S16384x2 (maxCol x) broadcasts_S16384x1_S16384x2))

theorem shifted_apply (x : FVec Ideal S16384x2 .f32) (k : Fin 16384) (c : Fin 2) :
    shifted x (ix2 k c) = Ideal.exp (x (ix2 k c) - Cert.Loss.bMax x k) := by
  refine (vexp_apply _ _).trans (congrArg Ideal.exp ?_)
  refine (subf_apply _ _ _).trans (congrArg (x (ix2 k c) - ·) ?_)
  exact (bcastCol_apply _ _ k c).trans (maxCol_apply x k)

/-- The column of shifted log-sum-exps. -/
def lseCol (x : FVec Ideal S16384x2 .f32) : FVec Ideal S16384x1 .f32 :=
  log (shapeCast S16384x1
    (multiReduction (F := Ideal) .add [1] S16384 (shifted x) 0x00000000#32 reduces_S16384x2_S16384 (.inl rfl) rfl)
    shapeCasts_S16384_S16384x1)

theorem lseCol_apply (x : FVec Ideal S16384x2 .f32) (k : Fin 16384) : lseCol x (ix2 k (0 : Fin 1)) = Cert.Loss.bLse x k := by
  unfold Cert.Loss.bLse
  refine (vlog_apply _ _).trans (congrArg Ideal.log ?_)
  refine (castCol_apply _ _ k (0 : Fin 1)).trans ?_
  refine (redAdd_apply _ _ _ _ k).trans ?_
  rw [shifted_apply, shifted_apply]

/-- The table of log-probabilities x - (m + L). -/
def logpMat (x : FVec Ideal S16384x2 .f32) : FVec Ideal S16384x2 .f32 :=
  subf x (broadcastTo S16384x2 (addf (maxCol x) (lseCol x)) broadcasts_S16384x1_S16384x2)

theorem logpMat_apply (x : FVec Ideal S16384x2 .f32) (k : Fin 16384) (c : Fin 2) :
    logpMat x (ix2 k c) = Cert.Loss.bLogp x k c := by
  unfold Cert.Loss.bLogp
  refine (subf_apply _ _ _).trans (congrArg (x (ix2 k c) - ·) ?_)
  refine (bcastCol_apply _ _ k c).trans ?_
  refine (addf_apply _ _ _).trans ?_
  rw [maxCol_apply, lseCol_apply]

/-! ## The payloads -/

/-- The mask "the target word is 1", at row k. -/
theorem pay7_apply (t : Cert.Loss.BlockT) (k : Fin 16384) :
    k0_pay7 (F := Ideal) t (ix2 k (0 : Fin 1)) = IntOp.cmpi .eq (t (ix2 k (0 : Fin 1))) 1#32 := by
  unfold k0_pay7 k0_pay6
  show IntOp.cmpi .eq (shapeCast S16384x1 t shapeCasts_S16384x1_S16384x1 (ix2 k (0 : Fin 1))) 1#32 = _
  rw [shapeCast_self]

/-- The mask "the target word is 0", at row k. -/
theorem pay8_apply (t : Cert.Loss.BlockT) (k : Fin 16384) :
    k0_pay8 (F := Ideal) t (ix2 k (0 : Fin 1)) = IntOp.cmpi .eq (t (ix2 k (0 : Fin 1))) 0#32 := by
  unfold k0_pay8 k0_pay6
  show IntOp.cmpi .eq (shapeCast S16384x1 t shapeCasts_S16384x1_S16384x1 (ix2 k (0 : Fin 1))) 0#32 = _
  rw [shapeCast_self]

/-- The picked column is the choice, under the first mask, between the two class columns of the log-probability table. -/
theorem pay9_eq (x : Cert.Loss.BlockX) (t : Cert.Loss.BlockT) :
    k0_pay9 (F := Ideal) x t = select (k0_pay7 (F := Ideal) t)
      (extractStridedSlice S16384x1 ![0, 1] (logpMat x) slices_S16384x2_o0_1_S16384x1)
      (extractStridedSlice S16384x1 ![0, 0] (logpMat x) slices_S16384x2_o0_0_S16384x1) := rfl

/-- The picked entry of row k: the class-1 log-probability when the target word is 1, the class-0 one otherwise. -/
theorem pay9_apply (x : Cert.Loss.BlockX) (t : Cert.Loss.BlockT) (k : Fin 16384) :
    k0_pay9 (F := Ideal) x t (ix2 k (0 : Fin 1))
      = if t (ix2 k (0 : Fin 1)) = 1#32 then Cert.Loss.bLogp x k 1 else Cert.Loss.bLogp x k 0 := by
  rw [pay9_eq]
  refine (select_apply _ _ _ _).trans ?_
  rw [pay7_apply, select_cmpi_eq, slice1_apply, slice0_apply, logpMat_apply, logpMat_apply]

/-- The block's sum of class-1 log-probabilities over the rows whose target word is 1. -/
theorem pay10_eq (x : Cert.Loss.BlockX) (t : Cert.Loss.BlockT) :
    k0_pay10 (F := Ideal) x t (ix2 (0 : Fin 1) (0 : Fin 1))
      = Cert.Loss.bSumWhere t 1#32 (fun k => Cert.Loss.bLogp x k 1) := by
  unfold k0_pay10 Cert.Loss.bSumWhere
  refine (colSum_apply _ _ _ _ _).trans ?_
  refine Finset.sum_congr rfl fun k _ => ?_
  refine (select_apply _ _ _ _).trans ?_
  rw [pay7_apply, select_cmpi_eq, pay9_apply, broadcast_apply]
  by_cases h : t (ix2 k (0 : Fin 1)) = 1#32
  · rw [if_pos h, if_pos h, if_pos h]
  · rw [if_neg h, if_neg h]; exact Ideal.ofBits_zero_f32

/-- The block's sum of class-0 log-probabilities over the rows whose target word is 0: such a word is not 1, so the
    picked entry there is the class-0 one. -/
theorem pay11_eq (x : Cert.Loss.BlockX) (t : Cert.Loss.BlockT) :
    k0_pay11 (F := Ideal) x t (ix2 (0 : Fin 1) (0 : Fin 1))
      = Cert.Loss.bSumWhere t 0#32 (fun k => Cert.Loss.bLogp x k 0) := by
  unfold k0_pay11 Cert.Loss.bSumWhere
  refine (colSum_apply _ _ _ _ _).trans ?_
  refine Finset.sum_congr rfl fun k _ => ?_
  refine (select_apply _ _ _ _).trans ?_
  rw [pay8_apply, select_cmpi_eq, pay9_apply, broadcast_apply]
  by_cases h : t (ix2 k (0 : Fin 1)) = 0#32
  · have h1 : ¬ t (ix2 k (0 : Fin 1)) = 1#32 := by rw [h]; decide
    rw [if_pos h, if_pos h, if_neg h1]
  · rw [if_neg h, if_neg h]; exact Ideal.ofBits_zero_f32

/-- The block's count of rows whose target word is 1, as a sum of ones. -/
theorem pay12_eq (t : Cert.Loss.BlockT) :
    k0_pay12 (F := Ideal) t (ix2 (0 : Fin 1) (0 : Fin 1)) = Cert.Loss.bSumWhere t 1#32 (fun _ => 1) := by
  unfold k0_pay12 Cert.Loss.bSumWhere
  refine (colSum_apply _ _ _ _ _).trans ?_
  refine Finset.sum_congr rfl fun k _ => ?_
  refine (sitofp_apply _ _).trans ?_
  rw [extui_apply, pay7_apply]
  exact count_bit _ _

/-- The block's count of rows whose target word is 0, as a sum of ones. -/
theorem pay13_eq (t : Cert.Loss.BlockT) :
    k0_pay13 (F := Ideal) t (ix2 (0 : Fin 1) (0 : Fin 1)) = Cert.Loss.bSumWhere t 0#32 (fun _ => 1) := by
  unfold k0_pay13 Cert.Loss.bSumWhere
  refine (colSum_apply _ _ _ _ _).trans ?_
  refine Finset.sum_congr rfl fun k _ => ?_
  refine (sitofp_apply _ _).trans ?_
  rw [extui_apply, pay8_apply]
  exact count_bit _ _

end Cert.KernelIdeal.Block

end
-- ==== Proof.KValue.lean ====
/-
  The kernel's value.

  A block row's log-probability is the table row's, so each point's four partial results are masked sums over that
  point's table rows; the final accumulator's columns are the sums of the 512 points' partial results, which regroup
  into the four masked sums over the whole table; and the host tail of those four numbers is the loss in the kernel's
  arrangement (log-probabilities grouped as x - (m + L), rows counted by sums of ones).
-/
import proofs.«400405_j20624432955694_2_alg».proof.Proof.KSum
import proofs.«400405_j20624432955694_2_alg».proof.Proof.KRows
import proofs.«400405_j20624432955694_2_alg».proof.Proof.BlockSpec
import proofs.«400405_j20624432955694_2_alg».proof.Proof.KBlock

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.Loss
variable (m : (ℓ : Loc nD τ sig) → Buf (Elt Ideal) ℓ) (ρ : Dev nD → PrngReg)

attribute [local irreducible] Cert.KernelIdeal.Gen.outsAt0

/-- The logits and the targets as launched. -/
abbrev xs (c : Dev nD) : Logits := m ((c : Thread nD τ).loc main_arg0)
abbrev ts (c : Dev nD) : Targets := m ((c : Thread nD τ).loc main_arg1)

/-- Point `i` of the 512 as a grid point. -/
abbrev pt (i : Fin 512) : Fin cfg0.N := ⟨i.val, lt_of_lt_of_eq i.isLt N_0.symm⟩

/-- A block row's log-probability is the table row's. -/
theorem bLogp_blk (c : Dev nD) (t : Fin cfg0.N) (k : Fin 16384) (cc : Fin 2) :
    bLogp (xblk m c t) k cc = logpK (xs m c) (rowOf t k) cc := by
  unfold bLogp logpK bLse rowLse bMax rowMax
  simp only [xblk_apply]

/-- A block's masked sum is the sum over the block's table rows. -/
theorem bSum_blk (c : Dev nD) (t : Fin cfg0.N) (w : BitVec 32) (f : Fin 16384 → EReal) :
    bSumWhere (tblk m c t) w f = ∑ k : Fin 16384, if ts m c (ix1 (rowOf t k)) = w then f k else 0 := by
  unfold bSumWhere
  simp only [tblk_apply]

/-- The four partial results of point `t`, over the table's rows. -/
theorem part0_eq (c : Dev nD) (t : Fin cfg0.N) :
    part m c t 0 = ∑ k : Fin 16384, if ts m c (ix1 (rowOf t k)) = 1#32 then logpK (xs m c) (rowOf t k) 1 else 0 := by
  show k0_pay10 (F := Ideal) (xblk m c t) (tblk m c t) u00 = _
  rw [Cert.KernelIdeal.Block.pay10_eq, bSum_blk]
  simp only [bLogp_blk]
theorem part1_eq (c : Dev nD) (t : Fin cfg0.N) :
    part m c t 1 = ∑ k : Fin 16384, if ts m c (ix1 (rowOf t k)) = 0#32 then logpK (xs m c) (rowOf t k) 0 else 0 := by
  show k0_pay11 (F := Ideal) (xblk m c t) (tblk m c t) u00 = _
  rw [Cert.KernelIdeal.Block.pay11_eq, bSum_blk]
  simp only [bLogp_blk]
theorem part2_eq (c : Dev nD) (t : Fin cfg0.N) :
    part m c t 2 = ∑ k : Fin 16384, if ts m c (ix1 (rowOf t k)) = 1#32 then (1 : EReal) else 0 := by
  show k0_pay12 (F := Ideal) (tblk m c t) u00 = _
  rw [Cert.KernelIdeal.Block.pay12_eq, bSum_blk]
theorem part3_eq (c : Dev nD) (t : Fin cfg0.N) :
    part m c t 3 = ∑ k : Fin 16384, if ts m c (ix1 (rowOf t k)) = 0#32 then (1 : EReal) else 0 := by
  show k0_pay13 (F := Ideal) (tblk m c t) u00 = _
  rw [Cert.KernelIdeal.Block.pay13_eq, bSum_blk]

/-- The final accumulator as a 1×4 vector of extended reals. -/
abbrev totalV (c : Dev nD) : FVec Ideal S1x4 .f32 := total m c

/-- Column `k` of the final accumulator is the sum of the 512 points' partial results. -/
theorem total_col (c : Dev nD) (k : Fin 4) : totalV m c (col k) = ∑ i : Fin 512, part m c (pt i) k := by
  show outsAt0 m c tLast.val tLast.isLt (col k) = _
  rw [outsAt_col, run_eq_sum]

/-- A masked sum over the table is the sum over the points of the masked sums over their rows. -/
theorem sumWhere_points (c : Dev nD) (w : BitVec 32) (f : Fin 8388608 → EReal) :
    sumWhere (ts m c) w f = ∑ i : Fin 512, ∑ k : Fin 16384, if ts m c (ix1 (rowOf (pt i) k)) = w then f (rowOf (pt i) k) else 0 :=
  sum_rows (fun r => if ts m c (ix1 r) = w then f r else 0) (fun i k => rowOf (pt i) k) (fun _ _ => rfl)

theorem total_col0 (c : Dev nD) : totalV m c (col 0) = sumWhere (ts m c) 1#32 (fun r => logpK (xs m c) r 1) := by
  rw [total_col, sumWhere_points]; exact Finset.sum_congr rfl fun i _ => part0_eq m c (pt i)
theorem total_col1 (c : Dev nD) : totalV m c (col 1) = sumWhere (ts m c) 0#32 (fun r => logpK (xs m c) r 0) := by
  rw [total_col, sumWhere_points]; exact Finset.sum_congr rfl fun i _ => part1_eq m c (pt i)
theorem total_col2 (c : Dev nD) : totalV m c (col 2) = sumWhere (ts m c) 1#32 (fun _ => 1) := by
  rw [total_col, sumWhere_points]; exact Finset.sum_congr rfl fun i _ => part2_eq m c (pt i)
theorem total_col3 (c : Dev nD) : totalV m c (col 3) = sumWhere (ts m c) 0#32 (fun _ => 1) := by
  rw [total_col, sumWhere_points]; exact Finset.sum_congr rfl fun i _ => part3_eq m c (pt i)

/-- THE KERNEL'S VALUE: every weakly fair execution terminates with the result buffer at the loss of the launched
    logits and targets, in the kernel's arrangement, and both arguments unchanged. -/
theorem kernel_value : θ_run defs (onTc (τ := τ) (main (F := Ideal))) ⟨m, fun _ => 0, ρ⟩ fun r => ∀ c : Dev nD,
      r.2.mem ((c.tc : Thread nD τ).loc main_v20) = (fun _ => lossK (xs m c) (ts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      show tailOf (F := Ideal) (totalV m c) i = _
      rw [tailOf_apply, total_col0, total_col1, total_col2, total_col3]; rfl), (h c).2⟩) (kernel_run m ρ)

end Cert.KernelIdeal.Acc
end
-- ==== Proof.LibTypedOps.lean ====
/-
  A host operation built over typed references is the operation built over the bare references.

  A typed reference carries a buffer together with the equation that the buffer's type is the tensor type `T` of the
  value it holds; the builders over typed references state the operation's function at `T.Contents` and transport its
  arguments and its result along that equation. Destructuring the typed reference turns the equation into `rfl`, the
  transports into the identity, and the typed builder into the plain builder at the same function. The function of
  the plain builder is typed at the buffers' own types, so the two functions are related by heterogeneous equality
  (at a literal reference both types compute to the same tensor type, and the function is one term: `HEq.rfl`).
  Nothing here mentions a particular program: the lemmas are generic in the signature, the references and the values.
-/
import Idealize.ShloMosaic.Lib.StableHlo

namespace Idealize.ShloMosaic.StableHlo.TRef

open Idealize.ShloMosaic.TcCoe

variable {τ : Topo} {sig : RefSig} {Val : EltTy → Type}

/-- A constant written through a typed reference is the constant written to its buffer. -/
theorem nullary_plain {Ty : BufTy} (y : TRef sig Ty) (v : Ty.Contents Val) (v' : y.ref.ty.Contents Val) (hv : HEq v v')
    (hy : y.ref.space ≠ .host ∧ (y.ref : DevRef τ sig).isScoped = false) :
    TRef.nullary (τ := τ) y v = StableHlo.nullary y.ref v' hy := by
  obtain ⟨r, rfl, d, u⟩ := y
  cases hv
  rfl

/-- A one-operand operation over typed references is the plain one at the same function. -/
theorem unary_plain {Tx Ty : BufTy} (x : TRef sig Tx) (y : TRef sig Ty) (f : Tx.Contents Val → Ty.Contents Val)
    (f' : x.ref.ty.Contents Val → y.ref.ty.Contents Val) (hf : HEq f f')
    (hx : x.ref.space ≠ .host ∧ (x.ref : DevRef τ sig).isScoped = false)
    (hy : y.ref.space ≠ .host ∧ (y.ref : DevRef τ sig).isScoped = false) :
    TRef.unary (τ := τ) x y f = StableHlo.unary x.ref y.ref f' hx hy := by
  obtain ⟨rx, rfl, dx, ux⟩ := x
  obtain ⟨ry, rfl, dy, uy⟩ := y
  cases hf
  rfl

/-- A two-operand operation over typed references is the plain one at the same function. -/
theorem binary_plain {Ta Tb Ty : BufTy} (a : TRef sig Ta) (b : TRef sig Tb) (y : TRef sig Ty)
    (f : Ta.Contents Val → Tb.Contents Val → Ty.Contents Val)
    (f' : a.ref.ty.Contents Val → b.ref.ty.Contents Val → y.ref.ty.Contents Val) (hf : HEq f f')
    (ha : a.ref.space ≠ .host ∧ (a.ref : DevRef τ sig).isScoped = false)
    (hb : b.ref.space ≠ .host ∧ (b.ref : DevRef τ sig).isScoped = false)
    (hy : y.ref.space ≠ .host ∧ (y.ref : DevRef τ sig).isScoped = false) :
    TRef.binary (τ := τ) a b y f = StableHlo.binary a.ref b.ref y.ref f' ha hb hy := by
  obtain ⟨ra, rfl, da, ua⟩ := a
  obtain ⟨rb, rfl, db, ub⟩ := b
  obtain ⟨ry, rfl, dy, uy⟩ := y
  cases hf
  rfl

/-- A three-operand operation over typed references is the plain one at the same function. -/
theorem ternary_plain {Tc Ta Tb Ty : BufTy} (c : TRef sig Tc) (a : TRef sig Ta) (b : TRef sig Tb) (y : TRef sig Ty)
    (f : Tc.Contents Val → Ta.Contents Val → Tb.Contents Val → Ty.Contents Val)
    (f' : c.ref.ty.Contents Val → a.ref.ty.Contents Val → b.ref.ty.Contents Val → y.ref.ty.Contents Val) (hf : HEq f f')
    (hc : c.ref.space ≠ .host ∧ (c.ref : DevRef τ sig).isScoped = false)
    (ha : a.ref.space ≠ .host ∧ (a.ref : DevRef τ sig).isScoped = false)
    (hb : b.ref.space ≠ .host ∧ (b.ref : DevRef τ sig).isScoped = false)
    (hy : y.ref.space ≠ .host ∧ (y.ref : DevRef τ sig).isScoped = false) :
    TRef.ternary (τ := τ) c a b y f = StableHlo.ternary c.ref a.ref b.ref y.ref f' hc ha hb hy := by
  obtain ⟨rc, rfl, dc, uc⟩ := c
  obtain ⟨ra, rfl, da, ua⟩ := a
  obtain ⟨rb, rfl, db, ub⟩ := b
  obtain ⟨ry, rfl, dy, uy⟩ := y
  cases hf
  rfl

/-- A reshape over typed references is the plain reshape of the buffers (its side conditions are propositions). -/
theorem reshape_plain {Tx Ty : BufTy} (x : TRef sig Tx) (y : TRef sig Ty) (he : Tx.elt = Ty.elt)
    (hn : Tx.shape.ShapeCasts Ty.shape) (he' : x.ref.ty.elt = y.ref.ty.elt) (hn' : x.ref.ty.shape.ShapeCasts y.ref.ty.shape)
    (hx : x.ref.space ≠ .host ∧ (x.ref : DevRef τ sig).isScoped = false)
    (hy : y.ref.space ≠ .host ∧ (y.ref : DevRef τ sig).isScoped = false) :
    TRef.reshape (τ := τ) (Val := Val) x y he hn = StableHlo.reshape x.ref y.ref he' hn' hx hy := by
  obtain ⟨rx, rfl, dx, ux⟩ := x
  obtain ⟨ry, rfl, dy, uy⟩ := y
  rfl

end Idealize.ShloMosaic.StableHlo.TRef
-- ==== Proof.RefValue.lean ====
/-
  The value of the reference program, as mathematics.

  From logits x (8388608 rows of two scores) and one target word per row the reference computes, row by row, the
  log-softmax (x - m) - log (exp (x₀ - m) + exp (x₁ - m)) with m the row's larger score; picks in each row the entry
  of the column its target word names; sums the picked entries over the rows whose target is the word 1, and over the
  rows whose target is the word 0; counts the two sets of rows with 32-bit integer sums; and adds the two class means
  -(sum) / max (count, 1), a class with no row contributing 0.

  Read here one stage at a time over the values the read module names: the row maximum (a fold of max over the two
  classes from minus infinity), the log-softmax entry, the picked entry at a row whose target is the word of a class
  (there the wrap of negative indices and the out-of-range fill never act: the index is the word itself, it lies in
  [0, 1], and the gather's clamp leaves it), the two masked sums (a row whose target is another word contributes the
  constant 0 and its picked entry is never looked at), the two counts (at most 8388608 < 2^31, so the word sums
  neither wrap nor turn negative), and the guarded quotient. The last theorem assembles them into `lossR`.
-/
import proofs.«400405_j20624432955694_2_alg».proof.Proof.RefRead
import proofs.«400405_j20624432955694_2_alg».proof.Proof.Spec
import Idealize.ShloMosaic.Lib.ValueIdxRank1
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Cert.Loss
open Idealize.ShloMosaic Idealize.ShloMosaic.ValueIdx Idealize.ShloMosaic.StableHlo.Predicate

/-! ## The log-softmax -/

/-- The f32 pattern of minus infinity is the neutral element of the maximum. -/
theorem max_negInf (y : EReal) : max (Ideal.ofBits .f32 0xFF800000#32) y = y := by
  simp [Ideal.ofBits, Ideal.ieee]

theorem max_negInf' (y : EReal) : max y (Ideal.ofBits .f32 0xFF800000#32) = y := by
  rw [max_comm]; exact max_negInf y

/-- A maximum folded over two coordinates. -/
theorem fold_max_two (b : EReal) (g : Fin 2 → EReal) :
    Finset.fold max b g (Finset.univ : Finset (Fin 2)) = max (g 0) (max (g 1) b) := by
  rw [show (Finset.univ : Finset (Fin 2)) = {0, 1} from rfl, Finset.fold_insert (by decide), Finset.fold_singleton]

/-- Row r with the class coordinate k put back is the entry (r, k). -/
theorem lift_row (hR : S8388608x2.Reduces [1] S8388608) (r : Fin 8388608) (k : Fin 2) :
    hR.lift (ix1 r) k = ix2 r k := by
  funext c; apply Fin.ext
  fin_cases c <;> rfl

/-- The maximum-reduce over the class axis, at row r, is the row's larger score. -/
theorem rowMax_read (x : Logits) (r : Fin 8388608) :
    val_main_call0_v0 (F := Ideal) x (ix1 r) = rowMax x r := by
  unfold val_main_call0_v0
  have hR : S8388608x2.Reduces [1] S8388608 := by decide
  have e := Host.reduce_eq_fold_single (FloatOps.maximumf (F := Ideal) (φ := .f32)) (x : FVec Ideal S8388608x2 .f32) (val_main_call0_cst (F := Ideal)) reducesTo_S8388608x2_S8388608_d1 hR h_S_ (ix1 r)
  refine e.trans ?_
  refine (fold_max_two (Ideal.ofBits .f32 0xFF800000#32) (fun k => x (hR.lift (ix1 r) k))).trans ?_
  show max (x (hR.lift (ix1 r) (0 : Fin 2))) (max (x (hR.lift (ix1 r) (1 : Fin 2))) (Ideal.ofBits .f32 0xFF800000#32)) = _
  rw [max_negInf', lift_row, lift_row]
  rfl

/-- The shifted score x(r,c) - m_r the reference subtracts the log-sum-exp from. -/
theorem shift_read (x : Logits) (r : Fin 8388608) (c : Fin 2) :
    val_main_call0_v5 (F := Ideal) x (ix2 r c) = x (ix2 r c) - rowMax x r := by
  rw [val_main_call0_v5_apply, val_main_call0_v4_apply, val_main_call0_v3_apply, val_main_call0_v2_apply,
    val_main_call0_v1_apply, val_main_call0_cst_0_apply]
  have hi : idx_main_call0_v3 (idx_main_call0_v4 (ix2 r c)) = ix1 r := by
    funext a; match a with | ⟨0, _⟩ => rfl
  rw [hi, rowMax_read]
  show x (ix2 r c) - max (Ideal.ofBits .f32 0xFF800000#32) (rowMax x r) = _
  rw [max_negInf]

/-- The logarithm of the summed exponentials, at row r. -/
theorem lse_read (x : Logits) (r : Fin 8388608) (c : Fin 2) :
    val_main_call0_v10 (F := Ideal) x (ix2 r c) = rowLse x r := by
  rw [val_main_call0_v10_apply, val_main_call0_v9_apply, val_main_call0_v8_apply, val_main_call0_v7_apply,
    val_main_call0_cst_1_apply]
  have hk : ∀ k : Fin 2, idx_main_call0_v7 (idx_main_call0_v8 (idx_main_call0_v10 (ix2 r c))) k = ix2 r k := by
    intro k; funext a; match a with | ⟨0, _⟩ => rfl | ⟨1, _⟩ => rfl
  rw [Fin.sum_univ_two, hk, hk, val_main_call0_v6_apply, val_main_call0_v6_apply, shift_read, shift_read]
  show Ideal.log (Ideal.ofBits .f32 0x00000000#32 + (Ideal.exp (x (ix2 r 0) - rowMax x r) + Ideal.exp (x (ix2 r 1) - rowMax x r))) = _
  rw [Ideal.ofBits_zero_f32, zero_add]
  rfl

/-- The reference's log-softmax entry at (r, c) is the log-probability grouped as (x - m) - L. -/
theorem logSoftmax_read (x : Logits) (r : Fin 8388608) (c : Fin 2) :
    val_main_v0 (F := Ideal) x (ix2 r c) = logpR x r c := by
  rw [val_main_v0_apply, shift_read, lse_read]
  rfl

/-! ## The picked entry -/

abbrev gd := gather_S8388608x2_S8388608x1x1_S8388608x1_n_1_0_0_1_2_11

/-- The batched gather read at row r: the operand's entry in row r, at the column the start index names, read
    signed and clamped into [0, 1]. -/
theorem gather_row {w : Nat} (y : S8388608x2.Idx → EReal) (idx : IVec S8388608x1x1 w) (r : Fin 8388608) :
    Host.gather gd y idx (ix2 r (0 : Fin 1))
      = y (ix2 r ⟨min (idx (ix3 r (0 : Fin 1) (0 : Fin 1))).toInt.toNat 1, by omega⟩) := by
  unfold Host.gather
  congr 1
  funext a
  refine Fin.ext ?_
  match a with
  | ⟨0, _⟩ =>
    show gd.start (ix2 r (0 : Fin 1)) idx 0 + gd.batchCoord (ix2 r (0 : Fin 1)) 0 + gd.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gd.start (ix2 r (0 : Fin 1)) idx 1 + gd.batchCoord (ix2 r (0 : Fin 1)) 1 + gd.offCoord (ix2 r (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 r (0 : Fin 1)) ⟨List.idxOf (1 : Fin 2) gd.startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- The start index take_along_axis hands the gather at row r is the row's target word when that word is not
    negative (the +2 wrap is for negative words only). -/
theorem idxWord_read (t : Targets) (r : Fin 8388608) (w : BitVec 32) (hw : t (ix1 r) = w)
    (hneg : IntOp.cmpi .slt w 0#32 = 0#1) :
    val_main_call1_v5 (F := Ideal) t (ix3 r (0 : Fin 1) (0 : Fin 1)) = w := by
  rw [val_main_call1_v5_apply, val_main_call1_v4_apply, val_main_call1_v1_apply, val_main_v1_apply,
    val_main_call1_v0_apply, val_main_call1_c_apply]
  have hi : idx_main_v1 (idx_main_call1_v5 (ix3 r (0 : Fin 1) (0 : Fin 1))) = ix1 r := by
    funext a; match a with | ⟨0, _⟩ => exact Fin.ext (by simp)
  rw [hi, hw, hneg, select_zero]

/-- A fold over the one coordinate of a unit axis. -/
theorem fold_one {α : Type} (op : α → α → α) [Std.Commutative op] [Std.Associative op] (b : α) (g : Fin 1 → α) :
    Finset.fold op b g (Finset.univ : Finset (Fin 1)) = op (g 0) b := by
  rw [show (Finset.univ : Finset (Fin 1)) = {0} from rfl, Finset.fold_singleton]

theorem lift_unit (hR : S8388608x1x1.Reduces [2] S8388608x1) (r : Fin 8388608) (k : Fin 1) :
    hR.lift (ix2 r (0 : Fin 1)) k = ix3 r (0 : Fin 1) (0 : Fin 1) := by
  funext c; apply Fin.ext
  fin_cases c <;> fin_cases k <;> rfl

/-- The in-range mask of take_along_axis at row r: set when the target word lies in [0, 1]. -/
theorem inRange_read (t : Targets) (r : Fin 8388608) (w : BitVec 32) (hw : t (ix1 r) = w)
    (hneg : IntOp.cmpi .slt w 0#32 = 0#1)
    (hin : IntOp.andi (IntOp.andi (IntOp.cmpi .sge w 0#32) (IntOp.cmpi .sle w 1#32)) 1#1 = 1#1) :
    val_main_call1_v12 (F := Ideal) t (ix2 r (0 : Fin 1)) = 1#1 := by
  unfold val_main_call1_v12
  have hR : S8388608x1x1.Reduces [2] S8388608x1 := by decide
  have e := Host.reduce_eq_fold_single IntOp.andi (val_main_call1_v11 (F := Ideal) t) (val_main_call1_c_3 (F := Ideal))
    reducesTo_S8388608x1x1_S8388608x1_d2 hR h_S_ (ix2 r (0 : Fin 1))
  refine e.trans ?_
  refine (fold_one IntOp.andi (1#1) (fun k => val_main_call1_v11 (F := Ideal) t (hR.lift (ix2 r (0 : Fin 1)) k))).trans ?_
  show IntOp.andi (val_main_call1_v11 (F := Ideal) t (hR.lift (ix2 r (0 : Fin 1)) (0 : Fin 1))) 1#1 = 1#1
  rw [lift_unit, val_main_call1_v11_apply, val_main_call1_v7_apply, val_main_call1_v10_apply, idxWord_read t r w hw hneg,
    val_main_call1_v6_apply, val_main_call1_c_2_apply, val_main_call1_v9_apply, val_main_call1_v8_apply,
    val_main_call1_c_1_apply]
  exact hin

/-- THE PICKED ENTRY: at a row whose target is the word of class c, take_along_axis returns the log-softmax entry of
    that class. -/
theorem picked_read (x : Logits) (t : Targets) (r : Fin 8388608) (c : Fin 2) (hw : t (ix1 r) = BitVec.ofNat 32 c.val) :
    val_main_v3 (F := Ideal) x t (ix1 r) = logpR x r c := by
  rw [val_main_v3_apply, val_main_v2_apply]
  have hi : idx_main_v3 (ix1 r) = ix2 r (0 : Fin 1) := by
    funext a; match a with
    | ⟨0, _⟩ => exact Fin.ext (Nat.div_one _)
    | ⟨1, _⟩ => rfl
  have hneg : IntOp.cmpi .slt (BitVec.ofNat 32 c.val) 0#32 = 0#1 := by fin_cases c <;> decide
  have hin : IntOp.andi (IntOp.andi (IntOp.cmpi .sge (BitVec.ofNat 32 c.val) 0#32) (IntOp.cmpi .sle (BitVec.ofNat 32 c.val) 1#32)) 1#1 = 1#1 := by
    fin_cases c <;> decide
  rw [hi, inRange_read t r _ hw hneg hin, select_one]
  unfold val_main_call1_v13
  rw [gather_row]
  have hc : ∀ (v : BitVec 32) (hv : v = BitVec.ofNat 32 c.val) (h : min v.toInt.toNat 1 < 2), (⟨min v.toInt.toNat 1, h⟩ : Fin 2) = c := by
    intro v hv h; subst hv; apply Fin.ext; show min (BitVec.ofNat 32 c.val).toInt.toNat 1 = c.val; fin_cases c <;> decide
  rw [hc _ (idxWord_read t r _ hw hneg), logSoftmax_read]

/-! ## The two masked sums -/

/-- The float sum over the rows whose target is the word 1, of their class-1 log-probabilities. -/
theorem sum1_read (x : Logits) (t : Targets) (i : S_.Idx) :
    val_main_v13 (F := Ideal) x t i = sumWhere t 1#32 fun r => logpR x r 1 := by
  rw [val_main_v13_apply, val_main_cst_3_apply, Ideal.ofBits_def, Ideal.ofBits_zero_f32, zero_add]
  unfold sumWhere
  refine (Equiv.sum_comp (idxEquiv1 (n := 8388608)).symm (fun j => val_main_v12 (F := Ideal) x t j)).symm.trans ?_
  refine Finset.sum_congr rfl fun r _ => ?_
  show val_main_v12 (F := Ideal) x t (ix1 r) = _
  rw [val_main_v12_apply, val_main_v5_apply, val_main_v4_apply, val_main_c_apply]
  by_cases h : t (ix1 r) = 1#32
  · rw [if_pos h, cmpi_eq_iff.2 h, select_one]
    exact picked_read x t r 1 h
  · rw [if_neg h, eq_zero_of_ne_one (fun e => h (cmpi_eq_iff.1 e)), select_zero, val_main_call2_v1_apply,
      val_main_call2_v0_apply, val_main_cst_apply, Ideal.ofBits_def, Ideal.ofBits_zero_f32]

/-- The float sum over the rows whose target is the word 0, of their class-0 log-probabilities. -/
theorem sum0_read (x : Logits) (t : Targets) (i : S_.Idx) :
    val_main_v15 (F := Ideal) x t i = sumWhere t 0#32 fun r => logpR x r 0 := by
  rw [val_main_v15_apply, val_main_cst_5_apply, Ideal.ofBits_def, Ideal.ofBits_zero_f32, zero_add]
  unfold sumWhere
  refine (Equiv.sum_comp (idxEquiv1 (n := 8388608)).symm (fun j => val_main_v14 (F := Ideal) x t j)).symm.trans ?_
  refine Finset.sum_congr rfl fun r _ => ?_
  show val_main_v14 (F := Ideal) x t (ix1 r) = _
  rw [val_main_v14_apply, val_main_v7_apply, val_main_v6_apply, val_main_c_0_apply]
  by_cases h : t (ix1 r) = 0#32
  · rw [if_pos h, cmpi_eq_iff.2 h, select_one]
    exact picked_read x t r 0 h
  · rw [if_neg h, eq_zero_of_ne_one (fun e => h (cmpi_eq_iff.1 e)), select_zero, val_main_call3_v1_apply,
      val_main_call3_v0_apply, val_main_cst_4_apply, Ideal.ofBits_def, Ideal.ofBits_zero_f32]

/-! ## The two counts -/

/-- Word addition folded from 0 over the rows of a widened one-bit mask counts the set bits: the count is at most
    8388608, far below 2^32, so the word sum never wraps. -/
theorem count_mask (m : IVec S8388608 1) (i : S_.Idx) :
    Host.reduce IntOp.addi (extui 32 m natLt_1_32) (constantI S_ 32 0#32) reducesTo_S8388608_S_d0 h_S_ i
      = BitVec.ofNat 32 (Finset.univ.filter fun r : Fin 8388608 => m (ix1 r) = 1#1).card := by
  classical
  rw [Host.reduce_eq_fold]
  have hall : (Finset.univ.filter fun j : S8388608.Idx => reducesTo_S8388608_S_d0.drop j = i) = Finset.univ :=
    Finset.filter_true_of_mem fun j _ => funext fun b => b.elim0
  rw [hall]
  have hsum : ∑ j : S8388608.Idx, (extui 32 m natLt_1_32 j).toNat
      = (Finset.univ.filter fun r : Fin 8388608 => m (ix1 r) = 1#1).card := by
    rw [Finset.card_filter]
    refine (Equiv.sum_comp (idxEquiv1 (n := 8388608)).symm fun j => (extui 32 m natLt_1_32 j).toNat).symm.trans ?_
    exact Finset.sum_congr rfl fun k _ => toNat_setWidth_bit (m (ix1 k))
  have hle : (Finset.univ.filter fun r : Fin 8388608 => m (ix1 r) = 1#1).card ≤ 8388608 := by
    have := Finset.card_le_univ (Finset.univ.filter fun r : Fin 8388608 => m (ix1 r) = 1#1)
    rwa [Fintype.card_fin] at this
  apply BitVec.eq_of_toNat_eq
  show (Finset.fold IntOp.addi 0#32 (extui 32 m natLt_1_32) (Finset.univ : Finset S8388608.Idx)).toNat = _
  rw [toNat_fold_addi _ _ (by rw [hsum]; omega), hsum, BitVec.toNat_ofNat]
  exact (Nat.mod_eq_of_lt (by omega)).symm

/-- The integer count of the rows whose target is the word 1. -/
theorem count1_read (t : Targets) (i : S_.Idx) :
    val_main_v9 (F := Ideal) t i = BitVec.ofNat 32 (cardWhere t 1#32) := by
  unfold val_main_v9 val_main_v8 val_main_c_1
  refine (count_mask (val_main_v5 (F := Ideal) t) i).trans ?_
  unfold cardWhere
  refine congrArg (fun S : Finset (Fin 8388608) => BitVec.ofNat 32 S.card) (Finset.filter_congr fun r _ => ?_)
  rw [val_main_v5_apply, val_main_v4_apply, val_main_c_apply]
  exact cmpi_eq_iff

/-- The integer count of the rows whose target is the word 0. -/
theorem count0_read (t : Targets) (i : S_.Idx) :
    val_main_v11 (F := Ideal) t i = BitVec.ofNat 32 (cardWhere t 0#32) := by
  unfold val_main_v11 val_main_v10 val_main_c_2
  refine (count_mask (val_main_v7 (F := Ideal) t) i).trans ?_
  unfold cardWhere
  refine congrArg (fun S : Finset (Fin 8388608) => BitVec.ofNat 32 S.card) (Finset.filter_congr fun r _ => ?_)
  rw [val_main_v7_apply, val_main_v6_apply, val_main_c_0_apply]
  exact cmpi_eq_iff

theorem cardWhere_le (t : Targets) (w : BitVec 32) : cardWhere t w ≤ 8388608 := by
  have := Finset.card_le_univ (Finset.univ.filter fun r : Fin 8388608 => t (ix1 r) = w)
  rwa [Fintype.card_fin] at this

/-! ## The class means and the loss -/

/-- The signed maximum of a small count word with the word 1 is the word of the larger natural number. -/
theorem maxsi_count (n : ℕ) (hn : n ≤ 8388608) : IntOp.maxsi (BitVec.ofNat 32 n) 1#32 = BitVec.ofNat 32 (max n 1) := by
  have hx : (BitVec.ofNat 32 n).toInt = n := toInt_ofNat_small n (by omega)
  have h1 : (1#32 : BitVec 32).toInt = 1 := by decide
  unfold IntOp.maxsi
  split <;> rename_i hc <;> simp only [BitVec.slt, hx, h1, decide_eq_true_eq] at hc
  · rw [max_eq_left (by omega)]
  · rw [max_eq_right (by omega)]

/-- A class mean as the reference computes it from the count word n: the guarded quotient of the negated sum by the
    count, read signed and raised to at least 1. -/
theorem mean_word (s : EReal) (n : ℕ) (hn : n ≤ 8388608) :
    Scalar.select (IntOp.cmpi .sgt (BitVec.ofNat 32 n) 0#32)
      (FloatOps.hostDivf (F := Ideal) (φ := .f32) (FloatOps.hostNegf (F := Ideal) (φ := .f32) s)
        (FloatOps.sitofp (F := Ideal) .f32 (IntOp.maxsi (BitVec.ofNat 32 n) 1#32)))
      (FloatOps.ofBits (F := Ideal) .f32 0x00000000#32) = meanN s n := by
  have hnat : (BitVec.ofNat 32 n).toNat = n := by rw [BitVec.toNat_ofNat]; exact Nat.mod_eq_of_lt (by omega)
  have hgt : IntOp.cmpi .sgt (BitVec.ofNat 32 n) 0#32 = 1#1 ↔ 0 < n := by
    rw [sgt_iff_toNat (by omega) (by decide), hnat]; rfl
  have hm : max n 1 ≤ 8388608 := max_le hn (by omega)
  rw [maxsi_count n hn]
  unfold meanN
  by_cases h : 0 < n
  · rw [if_pos h, hgt.2 h, select_one]
    show Ideal.div (-s) (((BitVec.ofNat 32 (max n 1)).toInt : ℝ) : EReal) = _
    rw [toInt_ofNat_small _ (by omega), Int.cast_natCast]
  · rw [if_neg h, eq_zero_of_ne_one (fun e => h (hgt.1 e)), select_zero, Ideal.ofBits_def, Ideal.ofBits_zero_f32]

/-- THE REFERENCE'S VALUE: the sum of the two class means of the negated log-probabilities. -/
theorem value_eq (x : Cert.Loss.Logits) (t : Cert.Loss.Targets) :
    Cert.ReferenceIdeal.ReadP.val_main_v28 (F := Ideal) x t = fun _ => Cert.Loss.lossR x t := by
  funext i
  rw [val_main_v28_apply, val_main_v27_apply, val_main_v21_apply, val_main_v22_apply, val_main_v16_apply,
    val_main_v26_apply, val_main_v20_apply, val_main_v23_apply, val_main_v17_apply, val_main_v25_apply,
    val_main_v19_apply, val_main_v24_apply, val_main_v18_apply, val_main_c_9_apply, val_main_c_6_apply,
    val_main_c_10_apply, val_main_c_7_apply, val_main_call5_v0_apply, val_main_call4_v0_apply,
    val_main_cst_11_apply, val_main_cst_8_apply, sum0_read, sum1_read, count0_read, count1_read,
    mean_word _ _ (cardWhere_le t 0#32), mean_word _ _ (cardWhere_le t 1#32)]
  rfl

end Cert.ReferenceIdeal.RefValue

end
-- ==== Proof.LossEq.lean ====
/-
  The two arrangements of the loss agree on finite logits.

  Four steps. (a) Row by row the two groupings of the log-probability, x_c - (m + L) and (x_c - m) - L, are equal:
  for real scores a, b the maximum m is real, exp (a - m) + exp (b - m) is a positive real, so its logarithm L is
  real, and in the reals subtraction of a sum is iterated subtraction. (b) A sum of ones over the rows of a class is
  the number of those rows. (c) The class mean taken with a count in the extended reals is the class mean taken with
  the same count as a natural number: positivity and the maximum with 1 pass through the cast. (d) The losses are
  built from these pieces in the same way.
-/
import proofs.«400405_j20624432955694_2_alg».proof.Proof.Spec
import Idealize.ShloMosaic.PureOps.Ideal
import Mathlib.Data.EReal.Basic
import Mathlib.Data.EReal.Operations
import Mathlib.Data.Nat.Cast.Order.Basic
import Mathlib.Algebra.BigOperators.Group.Finset.Basic
import Mathlib.Analysis.SpecialFunctions.Exp

noncomputable section

open Idealize.ShloMosaic Idealize.ShloMosaic.ValueIdx

namespace Cert.Loss

/-- The cast of the reals into the extended reals carries the maximum of two reals to the maximum of the casts. -/
private theorem coe_max_real (a b : ℝ) : ((max a b : ℝ) : EReal) = max (a : EReal) (b : EReal) :=
  EReal.coe_strictMono.monotone.map_max

/-- For real scores a, b the row maximum is the real max a b. -/
theorem rowMax_real (x : Logits) (r : Fin 8388608) (a b : ℝ)
    (ha : x (ix2 r (0 : Fin 2)) = (a : EReal)) (hb : x (ix2 r (1 : Fin 2)) = (b : EReal)) :
    rowMax x r = ((max a b : ℝ) : EReal) := by
  rw [rowMax, ha, hb, coe_max_real]

/-- For real scores a, b with m = max a b the shifted log-sum-exp is the real log (exp (a - m) + exp (b - m)):
    the sum of the two exponentials is a positive real, so the logarithm takes its real branch. -/
theorem rowLse_real (x : Logits) (r : Fin 8388608) (a b : ℝ)
    (ha : x (ix2 r (0 : Fin 2)) = (a : EReal)) (hb : x (ix2 r (1 : Fin 2)) = (b : EReal)) :
    rowLse x r = ((Real.log (Real.exp (a - max a b) + Real.exp (b - max a b)) : ℝ) : EReal) := by
  have hpos : ¬ (Real.exp (a - max a b) + Real.exp (b - max a b) ≤ 0) :=
    not_le.mpr (add_pos (Real.exp_pos _) (Real.exp_pos _))
  rw [rowLse, rowMax_real x r a b ha hb, ha, hb, ← EReal.coe_sub, ← EReal.coe_sub, Ideal.exp_coe, Ideal.exp_coe,
    ← EReal.coe_add, Ideal.log_coe, if_neg hpos]

/-- (a) On finite logits the two groupings of the log-probability agree. -/
theorem logp_eq (x : Logits) (hx : Finite x) (r : Fin 8388608) (c : Fin 2) : logpK x r c = logpR x r c := by
  obtain ⟨a, ha⟩ := hx (ix2 r (0 : Fin 2))
  obtain ⟨b, hb⟩ := hx (ix2 r (1 : Fin 2))
  obtain ⟨v, hv⟩ := hx (ix2 r c)
  rw [logpK, logpR, rowMax_real x r a b ha hb, rowLse_real x r a b ha hb, hv, ← EReal.coe_add, ← EReal.coe_sub,
    ← EReal.coe_sub, ← EReal.coe_sub, sub_add_eq_sub_sub]

/-- (b) The sum of ones over the rows whose target is the word w is the number of those rows. -/
theorem sum_ones (t : Targets) (w : BitVec 32) :
    sumWhere t w (fun _ => 1) = (((cardWhere t w : ℕ) : ℝ) : EReal) := by
  rw [sumWhere, cardWhere, Finset.sum_ite, Finset.sum_const_zero, add_zero, Finset.sum_const, nsmul_one,
    EReal.coe_natCast]

/-- (c) The class mean with the count cast into the extended reals is the class mean with the natural count. -/
theorem mean_eq (s : EReal) (n : ℕ) : meanE s (((n : ℕ) : ℝ) : EReal) = meanN s n := by
  have hmax : max (((n : ℕ) : ℝ) : EReal) 1 = (((max n 1 : ℕ) : ℝ) : EReal) := by
    rw [Nat.cast_max, coe_max_real, Nat.cast_one, EReal.coe_one]
  by_cases hn : 0 < n
  · have hpos : (0 : EReal) < (((n : ℕ) : ℝ) : EReal) := EReal.coe_pos.mpr (Nat.cast_pos.mpr hn)
    rw [meanE, meanN, if_pos hpos, if_pos hn, hmax]
  · have hneg : ¬ (0 : EReal) < (((n : ℕ) : ℝ) : EReal) := fun h => hn (Nat.cast_pos.mp (EReal.coe_pos.mp h))
    rw [meanE, meanN, if_neg hneg, if_neg hn]

/-- (d) On finite logits the two arrangements of the loss are equal. -/
theorem loss_eq (x : Logits) (t : Targets) (hx : Finite x) : lossK x t = lossR x t := by
  have h0 : (fun r => logpK x r 0) = fun r => logpR x r 0 := funext fun r => logp_eq x hx r 0
  have h1 : (fun r => logpK x r 1) = fun r => logpR x r 1 := funext fun r => logp_eq x hx r 1
  rw [lossK, lossR, h0, h1, sum_ones, sum_ones, mean_eq, mean_eq]

end Cert.Loss

end
-- ==== Proof.FiniteOfPre.lean ====
/-
  Finiteness of the logits from the printed precondition.

  The precondition computes |x| entry by entry, compares it strictly with +∞, and folds the comparisons by "and" from
  the word 1 over both axes. If the result is the word 1 then every comparison is the word 1, so every entry satisfies
  max (x, -x) < ⊤; neither ⊤ nor ⊥ does (the negation of ⊥ is ⊤), so every entry is a real number.
-/
import proofs.«400405_j20624432955694_2_alg».proof.Pre_finite_inputs
import proofs.«400405_j20624432955694_2_alg».proof.Proof.Gen.Pre_finite_inputs
import proofs.«400405_j20624432955694_2_alg».proof.Proof.Spec
import Idealize.ShloMosaic.Lib.ReduceAll

noncomputable section

open Idealize.ShloMosaic Idealize.ShloMosaic.ValueIdx

namespace Cert.Loss

/-- The one-bit word of a truth value is the word 1 exactly when the truth value is true. -/
private theorem ofBool_eq_one_iff (b : Bool) : BitVec.ofBool b = 1#1 ↔ b = true := by cases b <;> decide

/-- The bit pattern 0x7F800000 denotes +∞. -/
private theorem inf_pattern : Ideal.ofBits .f32 0x7F800000#32 = (⊤ : EReal) := by simp [Ideal.ofBits, Ideal.ieee]

/-- An extended real whose absolute value max (v, -v) is strictly below ⊤ is a real number. -/
private theorem real_of_abs_lt_top (v : EReal) (hv : max v (-v) < ⊤) : ∃ r : ℝ, v = (r : EReal) := by
  obtain ⟨h1, h2⟩ := max_lt_iff.mp hv
  induction v using EReal.rec with
  | bot => exact absurd h2 (by rw [EReal.neg_bot]; exact lt_irrefl _)
  | top => exact absurd h1 (lt_irrefl _)
  | coe r => exact ⟨r, rfl⟩

/-- If the printed precondition holds of the logits, every logit is a real number. -/
theorem finite_of_pre [Cert.Pre_finite_inputs.Facts] (x : Logits) (t : Targets)
    (h : Cert.Pre_finite_inputs.fn (F := Ideal) x t = fun _ => 1#1) : Finite x := by
  intro i
  -- the result of the fold has exactly one index
  haveI : Subsingleton Cert.Pre_finite_inputs.S_.Idx := ⟨fun a b => funext fun d => d.elim0⟩
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [inf_pattern] at hc
  unfold Ideal.cmp at hc
  rw [ofBool_eq_one_iff] at hc
  exact real_of_abs_lt_top (x i) (of_decide_eq_true hc)

end Cert.Loss

end
-- ==== Proof.lean ====
/-
  The certificate: the kernel and its reference compute the same loss on finite logits.

  Both programs take a table of logits (8388608 rows of two class scores) and one 32-bit target word per row, and
  return the sum over the two classes of the class-conditional mean of the negated log-softmax probability of the
  class, over the rows whose target is that class (0 for a class with no row). The kernel streams the table through
  512 blocks of 16384 rows, keeping four running totals, and normalizes on the host; the reference works on the whole
  table. At the exact instance the kernel's result is `Cert.Loss.lossK` of the launched arrays and the reference's is
  `Cert.Loss.lossR`; the two differ in how a row's log-probability is grouped, x - (m + L) against (x - m) - L, and in
  whether rows are counted by a float sum of ones or an integer sum, and they agree whenever every logit is a real
  number, which is what the precondition says. A row whose target word is neither 0 nor 1 enters no sum and no count
  on either side, so nothing is asked of the targets.

  The three frames: the two kernels' by the generated frame certificates, the reference's by its run with the result
  dropped. The idealization rewrote no operation, so `preserves` asks nothing.
-/
import proofs.«400405_j20624432955694_2_alg».proof.Defs
import proofs.«400405_j20624432955694_2_alg».proof.Proof.Gen.Kernel
import proofs.«400405_j20624432955694_2_alg».proof.Proof.Gen.Kernel.Skeleton
import proofs.«400405_j20624432955694_2_alg».proof.Proof.Gen.Kernel.Launch
import proofs.«400405_j20624432955694_2_alg».proof.Proof.Gen.Kernel.Points
import proofs.«400405_j20624432955694_2_alg».proof.Proof.Gen.Kernel.Frame
import proofs.«400405_j20624432955694_2_alg».proof.Proof.Gen.KernelIdeal
import proofs.«400405_j20624432955694_2_alg».proof.Proof.Gen.KernelIdeal.Skeleton
import proofs.«400405_j20624432955694_2_alg».proof.Proof.Gen.KernelIdeal.Launch
import proofs.«400405_j20624432955694_2_alg».proof.Proof.Gen.KernelIdeal.Points
import proofs.«400405_j20624432955694_2_alg».proof.Proof.Gen.KernelIdeal.Frame
import proofs.«400405_j20624432955694_2_alg».proof.Proof.Gen.ReferenceIdeal
import proofs.«400405_j20624432955694_2_alg».proof.Proof.Gen.Pre_finite_inputs
import proofs.«400405_j20624432955694_2_alg».proof.Proof.KValue
import proofs.«400405_j20624432955694_2_alg».proof.Proof.RefRun
import proofs.«400405_j20624432955694_2_alg».proof.Proof.RefValue
import proofs.«400405_j20624432955694_2_alg».proof.Proof.LossEq
import proofs.«400405_j20624432955694_2_alg».proof.Proof.FiniteOfPre
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the logits and the targets, both programs end at the same loss: the kernel at
    `lossK`, the reference at `lossR` of the same arrays, equal because the precondition makes every logit real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Loss.lossK (Cert.KernelIdeal.Acc.xs m c) (Cert.KernelIdeal.Acc.ts m c),
    Cert.KernelIdeal.Acc.kernel_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ValueP.val_main_v28_eq, (hagree c).1, (hagree c).2]
  refine (Cert.ReferenceIdeal.RefValue.value_eq _ _).trans (funext fun _ => ?_)
  exact (Cert.Loss.loss_eq _ _ (@Cert.Loss.finite_of_pre Cert.Pre_finite_inputs.Gen.facts _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
